-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x2 : Shape := ⟨2, ![1048576, 2]⟩
abbrev S1048576 : Shape := ⟨1, ![1048576]⟩
abbrev S64x2 : Shape := ⟨2, ![64, 2]⟩
abbrev S10x64 : Shape := ⟨2, ![10, 64]⟩
abbrev S10 : Shape := ⟨1, ![10]⟩
abbrev S_ : Shape := ⟨0, ![]⟩

class Facts : Prop where
  bcast_S_S1048576x2 : S_.BroadcastsInDim S1048576x2 (![] : Fin 0 → Fin S1048576x2.rank)
  reducesTo_S1048576x2_S_d0_1 : S1048576x2.ReducesTo [0, 1] S_
  h_S_ : 0 < S_.numel
  bcast_S_S64x2 : S_.BroadcastsInDim S64x2 (![] : Fin 0 → Fin S64x2.rank)
  reducesTo_S64x2_S_d0_1 : S64x2.ReducesTo [0, 1] S_
  bcast_S_S10x64 : S_.BroadcastsInDim S10x64 (![] : Fin 0 → Fin S10x64.rank)
  reducesTo_S10x64_S_d0_1 : S10x64.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  main_v18

def fn {F : FTy → Type} [FloatOps F] (main_arg0 : FVec F S1048576x2 .f32) (main_arg1 : IVec S1048576 32) (main_arg2 : FVec F S64x2 .f32) (main_arg3 : FVec F S10x64 .f32) (main_arg4 : FVec F S10 .f32) : IVec S_ 1 :=
  let main_v0 : FVec F S1048576x2 .f32 := Host.absf main_arg0
  let main_cst : FVec F S_ .f32 := constant S_ .f32 0x7F800000#32
  let main_v1 : FVec F S1048576x2 .f32 := broadcastInDim S1048576x2 ![] bcast_S_S1048576x2 main_cst
  let main_v2 : IVec S1048576x2 1 := cmpf .olt main_v0 main_v1
  let main_c : IVec S_ 1 := constantI S_ 1 1#1
  let main_v3 : IVec S_ 1 := (fun x v => Host.reduce IntOp.andi x v reducesTo_S1048576x2_S_d0_1 h_S_) main_v2 main_c
  let main_v4 : FVec F S64x2 .f32 := Host.absf main_arg2
  let main_cst_0 : FVec F S_ .f32 := constant S_ .f32 0x7F800000#32
  let main_v5 : FVec F S64x2 .f32 := broadcastInDim S64x2 ![] bcast_S_S64x2 main_cst_0
  let main_v6 : IVec S64x2 1 := cmpf .olt main_v4 main_v5
  let main_c_1 : IVec S_ 1 := constantI S_ 1 1#1
  let main_v7 : IVec S_ 1 := (fun x v => Host.reduce IntOp.andi x v reducesTo_S64x2_S_d0_1 h_S_) main_v6 main_c_1
  let main_v8 : IVec S_ 1 := andi main_v3 main_v7
  let main_v9 : FVec F S10x64 .f32 := Host.absf main_arg3
  let main_cst_2 : FVec F S_ .f32 := constant S_ .f32 0x7F800000#32
  let main_v10 : FVec F S10x64 .f32 := broadcastInDim S10x64 ![] bcast_S_S10x64 main_cst_2
  let main_v11 : IVec S10x64 1 := cmpf .olt main_v9 main_v10
  let main_c_3 : IVec S_ 1 := constantI S_ 1 1#1
  let main_v12 : IVec S_ 1 := (fun x v => Host.reduce IntOp.andi x v reducesTo_S10x64_S_d0_1 h_S_) main_v11 main_c_3
  let main_v13 : IVec S_ 1 := andi main_v8 main_v12
  let main_v14 : FVec F S10 .f32 := Host.absf main_arg4
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_v13 main_v16
-- ==== Kernel.lean ====
abbrev S1048576x2 : Shape := ⟨2, ![1048576, 2]⟩
abbrev S1048576 : Shape := ⟨1, ![1048576]⟩
abbrev S64x2 : Shape := ⟨2, ![64, 2]⟩
abbrev S10x64 : Shape := ⟨2, ![10, 64]⟩
abbrev S10 : Shape := ⟨1, ![10]⟩
abbrev S2x1048576 : Shape := ⟨2, ![2, 1048576]⟩
abbrev S1048576x1 : Shape := ⟨2, ![1048576, 1]⟩
abbrev S64x2048 : Shape := ⟨2, ![64, 2048]⟩
abbrev S2x2048 : Shape := ⟨2, ![2, 2048]⟩
abbrev S2048x1 : Shape := ⟨2, ![2048, 1]⟩
abbrev S2048 : Shape := ⟨1, ![2048]⟩
abbrev S1x2048 : Shape := ⟨2, ![1, 2048]⟩
abbrev S64 : Shape := ⟨1, ![64]⟩
abbrev S64x1 : Shape := ⟨2, ![64, 1]⟩
abbrev S2048x2048 : Shape := ⟨2, ![2048, 2048]⟩
abbrev S2048x64 : Shape := ⟨2, ![2048, 64]⟩
abbrev S64x10 : Shape := ⟨2, ![64, 10]⟩
abbrev S2048x10 : Shape := ⟨2, ![2048, 10]⟩
abbrev S1x10 : Shape := ⟨2, ![1, 10]⟩

abbrev nBuf : Space → Nat
  | .hbm => 14
  | .vmem => 6
  | .smem => 0
  | _ => 0

abbrev bufTy : (tb : Table) → Fin (tcTables nBuf tb) → BufTy
  | .hbm, ⟨0, _⟩ => ⟨S1048576x2, .f32⟩
  | .hbm, ⟨1, _⟩ => ⟨S1048576, .i32⟩
  | .hbm, ⟨2, _⟩ => ⟨S64x2, .f32⟩
  | .hbm, ⟨3, _⟩ => ⟨S10x64, .f32⟩
  | .hbm, ⟨4, _⟩ => ⟨S10, .f32⟩
  | .hbm, ⟨5, _⟩ => ⟨S2x1048576, .f32⟩
  | .hbm, ⟨6, _⟩ => ⟨S1048576x1, .i32⟩
  | .hbm, ⟨7, _⟩ => ⟨S64x2048, .f32⟩
  | .hbm, ⟨8, _⟩ => ⟨S2048x64, .f32⟩
  | .hbm, ⟨9, _⟩ => ⟨S64x10, .f32⟩
  | .hbm, ⟨10, _⟩ => ⟨S2048x10, .f32⟩
  | .hbm, ⟨11, _⟩ => ⟨S1x10, .f32⟩
  | .hbm, ⟨12, _⟩ => ⟨S2048x10, .f32⟩
  | .hbm, ⟨13, _⟩ => ⟨S2048x10, .f32⟩
  | .local _ .vmem, ⟨0, _⟩ => ⟨S2x2048, .f32⟩
  | .local _ .vmem, ⟨1, _⟩ => ⟨S2x2048, .f32⟩
  | .local _ .vmem, ⟨2, _⟩ => ⟨S2048x1, .i32⟩
  | .local _ .vmem, ⟨3, _⟩ => ⟨S2048x1, .i32⟩
  | .local _ .vmem, ⟨4, _⟩ => ⟨S64x2, .f32⟩
  | .local _ .vmem, ⟨5, _⟩ => ⟨S64x2048, .f32⟩
  | _, _ => ⟨S1048576x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  transposes_S1048576x2_S2x1048576_1_0 : S1048576x2.Transposes [1, 0] S2x1048576
  shapeCasts_S1048576_S1048576x1 : S1048576.ShapeCasts S1048576x1
  inb_S64x2048_S64x2048_0_0 : ∀ a, (![0, 0] : Fin 2 → Nat) a + S64x2048.size a ≤ S64x2048.size a
  h_S64x2048 : 0 < S64x2048.numel
  inb_S2x2048_S2x2048_0_0 : ∀ a, (![0, 0] : Fin 2 → Nat) a + S2x2048.size a ≤ S2x2048.size a
  h_S2x2048 : 0 < S2x2048.numel
  shapeCasts_S2x2048_S2x2048 : S2x2048.ShapeCasts S2x2048
  inb_S64x2_S64x2_0_0 : ∀ a, (![0, 0] : Fin 2 → Nat) a + S64x2.size a ≤ S64x2.size a
  h_S64x2 : 0 < S64x2.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  bitsLt_bf16_f32 : FTy.bits .bf16 < FTy.bits .f32
  reduces_S2x2048_S2048 : S2x2048.Reduces [0] S2048
  shapeCasts_S2048_S1x2048 : S2048.ShapeCasts S1x2048
  reduces_S64x2_S64 : S64x2.Reduces [1] S64
  shapeCasts_S64_S64x1 : S64.ShapeCasts S64x1
  broadcasts_S1x2048_S64x2048 : S1x2048.Broadcasts S64x2048
  broadcasts_S64x1_S64x2048 : S64x1.Broadcasts S64x2048
  iota_S2048x2048_d1_w32 : S2048x2048.Iotas .tc 32 [1]
  broadcasts_S2048x1_S2048x2048 : S2048x1.Broadcasts S2048x2048
  natLt_1_32 : 1 < 32
  shapeCasts_S64x2048_S64x2048 : S64x2048.ShapeCasts S64x2048
  transposes_S64x2048_S2048x64_1_0 : S64x2048.Transposes [1, 0] S2048x64
  transposes_S10x64_S64x10_1_0 : S10x64.Transposes [1, 0] S64x10
  bcast_S10_S1x10_1 : S10.BroadcastsInDim S1x10 (![1] : Fin 1 → Fin S1x10.rank)
  bcast_S1x10_S2048x10_0_1 : S1x10.BroadcastsInDim S2048x10 (![0, 1] : Fin 2 → Fin S2048x10.rank)
  dot_S64x2_S2x2048_S64x2048_1_0_0_1_n_n_wf : DotDims.WF S64x2 S2x2048 S64x2048 [1] [0] [0] [1] [] []
  dot_S64x2048_S2048x2048_S64x2048_1_0_0_1_n_n_wf : DotDims.WF S64x2048 S2048x2048 S64x2048 [1] [0] [0] [1] [] []
  dot_S2048x64_S64x10_S2048x10_1_0_0_1_n_n_wf : DotDims.WF S2048x64 S64x10 S2048x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2048.size a ≤ S2x1048576.size a
  hwx0_0 : ∀ i : grid0.Coords, EltTy.bits .f32 = 32 ∨ (Rect.block (s := S2x1048576) S2x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S1048576x1.size a
  hwx0_1 : ∀ i : grid0.Coords, EltTy.bits .i32 = 32 ∨ (Rect.block (s := S1048576x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2.size a ≤ S64x2.size a
  hwx0_2 : ∀ i : grid0.Coords, EltTy.bits .f32 = 32 ∨ (Rect.block (s := S64x2) S64x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S64x2048.size a
  hwx0_3 : ∀ i : grid0.Coords, EltTy.bits .f32 = 32 ∨ (Rect.block (s := S64x2048) S64x2048.size (cc0_transform_3 i) (hinb0_3 i)).WholeWords (EltTy.packing .f32)

variable [Facts₀]

def dot_S64x2_S2x2048_S64x2048_1_0_0_1_n_n : DotDims S64x2 S2x2048 S64x2048 where
  lhsContracting := [1]
  rhsContracting := [0]
  lhsNonContracting := [0]
  rhsNonContracting := [1]
  lhsBatch := []
  rhsBatch := []
  wf := dot_S64x2_S2x2048_S64x2048_1_0_0_1_n_n_wf
def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf
def dot_S2048x64_S64x10_S2048x10_1_0_0_1_n_n : DotDims S2048x64 S64x10 S2048x10 where
  lhsContracting := [1]
  rhsContracting := [0]
  lhsNonContracting := [0]
  rhsNonContracting := [1]
  lhsBatch := []
  rhsBatch := []
  wf := dot_S2048x64_S64x10_S2048x10_1_0_0_1_n_n_wf

abbrev win0_0 : Pipeline.Window sig grid0 :=
  Pipeline.Window.ofSpec (Memref.whole main_v0) S2x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x2048.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576x2 : Shape := ⟨2, ![1048576, 2]⟩
abbrev S1048576 : Shape := ⟨1, ![1048576]⟩
abbrev S64x2 : Shape := ⟨2, ![64, 2]⟩
abbrev S10x64 : Shape := ⟨2, ![10, 64]⟩
abbrev S10 : Shape := ⟨1, ![10]⟩
abbrev S_ : Shape := ⟨0, ![]⟩
abbrev S1048576x1 : Shape := ⟨2, ![1048576, 1]⟩
abbrev S64 : Shape := ⟨1, ![64]⟩
abbrev S1x64 : Shape := ⟨2, ![1, 64]⟩
abbrev S1048576x64 : Shape := ⟨2, ![1048576, 64]⟩
abbrev S2x64 : Shape := ⟨2, ![2, 64]⟩
abbrev S2048x64 : Shape := ⟨2, ![2048, 64]⟩
abbrev S64x10 : Shape := ⟨2, ![64, 10]⟩
abbrev S2048x10 : Shape := ⟨2, ![2048, 10]⟩
abbrev S1x10 : Shape := ⟨2, ![1, 10]⟩

abbrev nBuf : Space → Nat
  | .hbm => 36
  | .vmem => 0
  | .smem => 0
  | _ => 0

abbrev bufTy : (tb : Table) → Fin (tcTables nBuf tb) → BufTy
  | .hbm, ⟨0, _⟩ => ⟨S1048576x2, .f32⟩
  | .hbm, ⟨1, _⟩ => ⟨S1048576, .i32⟩
  | .hbm, ⟨2, _⟩ => ⟨S64x2, .f32⟩
  | .hbm, ⟨3, _⟩ => ⟨S10x64, .f32⟩
  | .hbm, ⟨4, _⟩ => ⟨S10, .f32⟩
  | .hbm, ⟨5, _⟩ => ⟨S1048576x2, .f32⟩
  | .hbm, ⟨6, _⟩ => ⟨S_, .f32⟩
  | .hbm, ⟨7, _⟩ => ⟨S1048576, .f32⟩
  | .hbm, ⟨8, _⟩ => ⟨S1048576x1, .f32⟩
  | .hbm, ⟨9, _⟩ => ⟨S64x2, .f32⟩
  | .hbm, ⟨10, _⟩ => ⟨S_, .f32⟩
  | .hbm, ⟨11, _⟩ => ⟨S64, .f32⟩
  | .hbm, ⟨12, _⟩ => ⟨S1x64, .f32⟩
  | .hbm, ⟨13, _⟩ => ⟨S1048576x64, .f32⟩
  | .hbm, ⟨14, _⟩ => ⟨S1048576x64, .f32⟩
  | .hbm, ⟨15, _⟩ => ⟨S1048576x64, .f32⟩
  | .hbm, ⟨16, _⟩ => ⟨S_, .f32⟩
  | .hbm, ⟨17, _⟩ => ⟨S1048576x2, .f32⟩
  | .hbm, ⟨18, _⟩ => ⟨S1048576x2, .f32⟩
  | .hbm, ⟨19, _⟩ => ⟨S2x64, .f32⟩
  | .hbm, ⟨20, _⟩ => ⟨S1048576x64, .f32⟩
  | .hbm, ⟨21, _⟩ => ⟨S1048576x64, .f32⟩
  | .hbm, ⟨22, _⟩ => ⟨S1048576x64, .f32⟩
  | .hbm, ⟨23, _⟩ => ⟨S_, .f32⟩
  | .hbm, ⟨24, _⟩ => ⟨S1048576x64, .f32⟩
  | .hbm, ⟨25, _⟩ => ⟨S1048576x64, .f32⟩
  | .hbm, ⟨26, _⟩ => ⟨S1048576x64, .f32⟩
  | .hbm, ⟨27, _⟩ => ⟨S_, .f32⟩
  | .hbm, ⟨28, _⟩ => ⟨S2048x64, .f32⟩
  | .hbm, ⟨29, _⟩ => ⟨S1048576x1, .i32⟩
  | .hbm, ⟨30, _⟩ => ⟨S2048x64, .f32⟩
  | .hbm, ⟨31, _⟩ => ⟨S64x10, .f32⟩
  | .hbm, ⟨32, _⟩ => ⟨S2048x10, .f32⟩
  | .hbm, ⟨33, _⟩ => ⟨S1x10, .f32⟩
  | .hbm, ⟨34, _⟩ => ⟨S2048x10, .f32⟩
  | .hbm, ⟨35, _⟩ => ⟨S2048x10, .f32⟩
  | _, _ => ⟨S1048576x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  reducesTo_S1048576x2_S1048576_d1 : S1048576x2.ReducesTo [1] S1048576
  h_S_ : 0 < S_.numel
  bcast_S1048576_S1048576x1_0 : S1048576.BroadcastsInDim S1048576x1 (![0] : Fin 1 → Fin S1048576x1.rank)
  reducesTo_S64x2_S64_d1 : S64x2.ReducesTo [1] S64
  bcast_S64_S1x64_1 : S64.BroadcastsInDim S1x64 (![1] : Fin 1 → Fin S1x64.rank)
  bcast_S1048576x1_S1048576x64_0_1 : S1048576x1.BroadcastsInDim S1048576x64 (![0, 1] : Fin 2 → Fin S1048576x64.rank)
  bcast_S1x64_S1048576x64_0_1 : S1x64.BroadcastsInDim S1048576x64 (![0, 1] : Fin 2 → Fin S1048576x64.rank)
  bcast_S_S1048576x2 : S_.BroadcastsInDim S1048576x2 (![] : Fin 0 → Fin S1048576x2.rank)
  transposes_S64x2_S2x64_1_0 : S64x2.Transposes [1, 0] S2x64
  bcast_S_S1048576x64 : S_.BroadcastsInDim S1048576x64 (![] : Fin 0 → Fin S1048576x64.rank)
  bcast_S_S2048x64 : S_.BroadcastsInDim S2048x64 (![] : Fin 0 → Fin S2048x64.rank)
  transposes_S10x64_S64x10_1_0 : S10x64.Transposes [1, 0] S64x10
  bcast_S10_S1x10_1 : S10.BroadcastsInDim S1x10 (![1] : Fin 1 → Fin S1x10.rank)
  bcast_S1x10_S2048x10_0_1 : S1x10.BroadcastsInDim S2048x10 (![0, 1] : Fin 2 → Fin S2048x10.rank)
  dot_S1048576x2_S2x64_S1048576x64_1_0_0_1_n_n_wf : DotDims.WF S1048576x2 S2x64 S1048576x64 [1] [0] [0] [1] [] []
  scatter_S2048x64_S1048576x1_S1048576x64_1_0_0_1_wf : ScatterDims.WF S2048x64 S1048576x1 S1048576x64 [1] [0] [0] 1
  dot_S2048x64_S64x10_S2048x10_1_0_0_1_n_n_wf : DotDims.WF S2048x64 S64x10 S2048x10 [1] [0] [0] [1] [] []

variable [Facts₀]

def dot_S1048576x2_S2x64_S1048576x64_1_0_0_1_n_n : DotDims S1048576x2 S2x64 S1048576x64 where
  lhsContracting := [1]
  rhsContracting := [0]
  lhsNonContracting := [0]
  rhsNonContracting := [1]
  lhsBatch := []
  rhsBatch := []
  wf := dot_S1048576x2_S2x64_S1048576x64_1_0_0_1_n_n_wf
def scatter_S2048x64_S1048576x1_S1048576x64_1_0_0_1 : ScatterDims S2048x64 S1048576x1 S1048576x64 where
  updateWindowDims := [1]
  insertedWindowDims := [0]
  scatterDimsToOperandDims := [0]
  indexVectorDim := 1
  wf := scatter_S2048x64_S1048576x1_S1048576x64_1_0_0_1_wf
def dot_S2048x64_S64x10_S2048x10_1_0_0_1_n_n : DotDims S2048x64 S64x10 S2048x10 where
  lhsContracting := [1]
  rhsContracting := [0]
  lhsNonContracting := [0]
  rhsNonContracting := [1]
  lhsBatch := []
  rhsBatch := []
  wf := dot_S2048x64_S64x10_S2048x10_1_0_0_1_n_n_wf

class Facts : Prop extends Facts₀ where

variable [Facts]
-- ==== Proof.KernelPieces.lean ====
/-
  What one grid point leaves in the output block, as a value.

  At a point that is not the first, the body loads the two input blocks, the landmarks and the output block as the
  point before left it, and stores one value over the whole output block: the running block plus this point's
  contribution.  At the first point it first stores zeros over the whole block and reads them back, so it leaves zeros
  plus the first contribution.  Both are the same function of the loaded values (the body's one arithmetic term),
  stated here at any float instance.
-/
import proofs.«401140_j30270929502733_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

/-- Every load and store of the body starts at the origin of its buffer. -/
theorem hz : (![0, 0] : Fin 2 → Nat) = fun _ => 0 := funext fun a => by fin_cases a <;> rfl

/-- A later point: the block the point before left, plus this point's contribution. -/
theorem out_B (c : Dev nD) (i : grid0.Coords) (a1 : Memref sig .tc .vmem S2x2048 .f32) (h1 : a1.IsWhole)
    (a2 : Memref sig .tc .vmem S2048x1 .i32) (h2 : a2.IsWhole) (a3 : Memref sig .tc .vmem S64x2 .f32) (h3 : a3.IsWhole)
    (a4 : Memref sig .tc .vmem S64x2048 .f32) (h4 : a4.IsWhole) (hc : ¬cond0_0 i)
    (x0 : Vec F S2x2048 .f32) (x1 : Vec F S2048x1 .i32) (x2 : Vec F S64x2 .f32) (xo : Vec F S64x2048 .f32) :
    out0_B_3 c i a1 h1 a2 h2 a3 h3 a4 h4 hc x0 x1 x2 xo = k0_pay2 x0 x2 x1 xo := by
  unfold out0_B_3
  rw [View.read_writes_eq_canon _ _ _ (cover0_B_3 c i a1 h1 a2 h2 a3 h3 a4 h4 hc x0 x1 x2 xo)]
  unfold kernelRun0_B
  dsimp only
  sl_unfold_words
  rw [View.canon_unit_zero hz]
  simp only [View.readAt_eq_ld, h1.read_unread, h2.read_unread, h3.read_unread, h4.read_unread,
    View.ld_unit_zero (S := S2x2048) hz, View.ld_unit_zero (S := S2048x1) hz, View.ld_unit_zero (S := S64x2) hz,
    View.ld_unit_zero (S := S64x2048) hz]

/-- The first point: the zero block, plus the first contribution. -/
theorem out_A (c : Dev nD) (i : grid0.Coords) (a1 : Memref sig .tc .vmem S2x2048 .f32) (h1 : a1.IsWhole)
    (a2 : Memref sig .tc .vmem S2048x1 .i32) (h2 : a2.IsWhole) (a3 : Memref sig .tc .vmem S64x2 .f32) (h3 : a3.IsWhole)
    (a4 : Memref sig .tc .vmem S64x2048 .f32) (h4 : a4.IsWhole) (hc : cond0_0 i)
    (x0 : Vec F S2x2048 .f32) (x1 : Vec F S2048x1 .i32) (x2 : Vec F S64x2 .f32) :
    out0_A_3 c i a1 h1 a2 h2 a3 h3 a4 h4 hc x0 x1 x2 = k0_pay2 x0 x2 x1 (k0_pay1 (F := F)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S64x2048) hz, View.readCov_unit_zero (S := S64x2048) _ hz]
  simp only [View.readAt_eq_ld, h1.read_unread, h2.read_unread, h3.read_unread,
    View.ld_unit_zero (S := S2x2048) hz, View.ld_unit_zero (S := S2048x1) hz, View.ld_unit_zero (S := S64x2) hz,
    View.ld_unit_zero (S := S64x2048) hz]

end Cert.KernelIdeal.Pieces

end
-- ==== Proof.LibMatProd.lean ====
/-
  A plain matrix product on the extended reals as a sum over the shared axis.

  For the dimension numbers of an `A × K` by `K × B` product (`DotDims.plain A K B`: contract the left
  operand's axis 1 with the right operand's axis 0, no batch axes), a kernel's `tpu.matmul` into a zero
  accumulator and a host `dot_general` are, at entry `(a, b)`, the sum over `k : Fin K` of
  `lhs (a, k) * rhs (k, b)`. A printed record with these six lists is `DotDims.plain` by `rfl`.
-/
import Idealize.ShloMosaic.PureOps.Ideal.Laws
import Idealize.ShloMosaic.Lib.ValueIdx

noncomputable section

namespace Cert.LibMatProd

open Idealize.ShloMosaic Idealize.ShloMosaic.ValueIdx

variable (A K B : ℕ)

/-- The left operand's index at result index `i` and contraction index `q`: row `i 0` … -/
theorem lhs_axis0 (i : (⟨2, ![A, B]⟩ : Shape).Idx) (q : (DotDims.plain A K B).contr.Idx) :
    ((DotDims.plain A K B).lhsIdx i q 0).val = (i 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.2 rfl)]
  rfl
/-- … column `q`'s one coordinate. -/
theorem lhs_axis1 (i : (⟨2, ![A, B]⟩ : Shape).Idx) (q : (DotDims.plain A K B).contr.Idx) :
    ((DotDims.plain A K B).lhsIdx i q 1).val = (q ⟨0, Nat.one_pos⟩).val :=
  (DotDims.plain A K B).lhsIdx_val_of_single rfl i q
/-- The right operand's index: row `q`'s one coordinate … -/
theorem rhs_axis0 (i : (⟨2, ![A, B]⟩ : Shape).Idx) (q : (DotDims.plain A K B).contr.Idx) :
    ((DotDims.plain A K B).rhsIdx i q 0).val = (q ⟨0, Nat.one_pos⟩).val :=
  (DotDims.plain A K B).rhsIdx_val_of_single rfl i q
/-- … column `i 1`. -/
theorem rhs_axis1 (i : (⟨2, ![A, B]⟩ : Shape).Idx) (q : (DotDims.plain A K B).contr.Idx) :
    ((DotDims.plain A K B).rhsIdx i q 1).val = (i 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.2 rfl)]
  rfl

/-- The sum over the contraction index of a plain product is the sum over `k : Fin K`. -/
theorem plain_sum (l : (⟨2, ![A, K]⟩ : Shape).Idx → EReal) (r : (⟨2, ![K, B]⟩ : Shape).Idx → EReal) (a : Fin A) (b : Fin B) :
    (∑ q : (DotDims.plain A K B).contr.Idx,
        l ((DotDims.plain A K B).lhsIdx (ix2 a b) q) * r ((DotDims.plain A K B).rhsIdx (ix2 a b) q))
      = ∑ k : Fin K, l (ix2 a k) * r (ix2 k b) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun ax => Fin.ext (by
      match ax with
      | ⟨0, _⟩ => exact lhs_axis0 A K B _ _
      | ⟨1, _⟩ => exact (lhs_axis1 A K B _ _).trans hk)
  have er : (DotDims.plain A K B).rhsIdx (ix2 a b) ((contrEquiv1 (DotDims.plain A K B) K rfl rfl).symm k) = ix2 k b :=
    funext fun ax => Fin.ext (by
      match ax with
      | ⟨0, _⟩ => exact (rhs_axis0 A K B _ _).trans hk
      | ⟨1, _⟩ => exact rhs_axis1 A K B _ _)
  rw [el, er]

variable {A K B}

/-- A kernel's matrix product into a zero accumulator, at entry `(a, b)`. -/
theorem matmul_zero_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    matmul d prec lhs rhs (constant ⟨2, ![A, B]⟩ .f32 0x00000000#32) (ix2 a b) = ∑ k : Fin K, lhs (ix2 a k) * rhs (ix2 k b) := by
  subst hd
  exact (Ideal.matmul_constant_zero_apply _ prec lhs rhs (ix2 a b)).trans (plain_sum A K B lhs rhs a b)

/-- A host `dot_general`, at entry `(a, b)`. -/
theorem dotGeneral_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    Host.dotGeneral d prec lhs rhs (ix2 a b) = ∑ k : Fin K, lhs (ix2 a k) * rhs (ix2 k b) := by
  subst hd
  exact (Ideal.dotGeneral_apply _ prec .single lhs rhs (ix2 a b)).trans (plain_sum A K B lhs rhs a b)

end Cert.LibMatProd

end
-- ==== Proof.Consts.lean ====
/-
  The float constants the two programs spell, as the extended reals their bit patterns denote: `2`, `-2` and `1/2`.
  They are stated in this one module, which alone opens the pattern decoder.
-/
import Idealize.ShloMosaic.PureOps.Ideal

noncomputable section

namespace Cert.Consts

open Idealize.ShloMosaic

/-- The pattern of `2.0` denotes the real `2`. -/
theorem ofBits_two : Ideal.ofBits .f32 0x40000000#32 = ((2 : ℝ) : EReal) := by
  simp [Ideal.ofBits, Ideal.ieee, -EReal.coe_mul]; norm_num

/-- The pattern of `-2.0` denotes the real `-2`. -/
theorem ofBits_neg_two : Ideal.ofBits .f32 0xC0000000#32 = ((-2 : ℝ) : EReal) := by
  simp [Ideal.ofBits, Ideal.ieee, -EReal.coe_mul]; norm_num

/-- The pattern of `0.5` denotes the real `1/2`. -/
theorem ofBits_half : Ideal.ofBits .f32 0x3F000000#32 = ((1 / 2 : ℝ) : EReal) := by
  simp [Ideal.ofBits, Ideal.ieee, -EReal.coe_mul]; norm_num

/-- The pattern of `+0.0` denotes `0`. -/
theorem ofBits_zero : Ideal.ofBits .f32 0x00000000#32 = 0 := by
  simp [Ideal.ofBits, Ideal.ieee]

end Cert.Consts

end
-- ==== Proof.Weight.lean ====
/-
  The Gaussian weight of a point against a landmark, as each program spells it, on the extended reals.

  For a point `x` and a landmark `θ` in the plane, with `d = |x|² + |θ|² - 2⟨θ, x⟩`:
  the kernel computes `exp (d · (-2))`, with the inner product taken first and doubled afterwards;
  the reference computes `exp ((-d') / (1/2))` where `d'` doubles the point's coordinates before the inner product
  and its two sums of squares start from an explicit zero.  The two agree on all extended reals: a non-negative real
  factor distributes over any sum, dividing by `1/2` is multiplying by `2`, and a sign moves across a product.

  Also here: the one-hot entry the kernel builds from a segment id and a column number, as `1` or `0`.
-/
import Idealize.ShloMosaic.PureOps.Ideal
import Idealize.ShloMosaic.PureOps.Ideal.Laws
import Idealize.ShloMosaic.Lib.StableHlo.Predicate
import proofs.«401140_j30270929502733_1_alg».proof.Proof.Consts

noncomputable section

open scoped BigOperators

namespace Cert.Gauss

open Idealize.ShloMosaic

/-- The kernel's weight: `exp ((|x|² + |θ|² - 2 · ⟨θ, x⟩) · (-2))`. -/
def kerW (x θ : Fin 2 → EReal) : EReal :=
  Ideal.exp ((((∑ j, x j * x j) + (∑ j, θ j * θ j)) - Ideal.ofBits .f32 0x40000000#32 * ∑ j, θ j * x j)
    * Ideal.ofBits .f32 0xC0000000#32)

/-- The reference's weight: `exp (-((0 + |x|²) + (0 + |θ|²) - ⟨2x, θ⟩) / (1/2))`. -/
def refW (x θ : Fin 2 → EReal) : EReal :=
  Ideal.exp (Ideal.div
    (-(((Ideal.ofBits .f32 0x00000000#32 + ∑ j, x j * x j) + (Ideal.ofBits .f32 0x00000000#32 + ∑ j, θ j * θ j))
        - ∑ j, (Ideal.ofBits .f32 0x40000000#32 * x j) * θ j))
    (Ideal.ofBits .f32 0x3F000000#32))

/-- Doubling each coordinate of the point before the inner product is doubling the inner product: `2` is a
    non-negative real, so it distributes over the two-term sum whatever the terms are. -/
theorem cross_two (x θ : Fin 2 → EReal) :
    ∑ j : Fin 2, (((2 : ℝ) : EReal) * x j) * θ j = ((2 : ℝ) : EReal) * ∑ j : Fin 2, θ j * x j := by
  have h2 : (0 : EReal) ≤ ((2 : ℝ) : EReal) := by exact_mod_cast (by norm_num : (0 : ℝ) ≤ 2)
  rw [Fin.sum_univ_two, Fin.sum_univ_two, EReal.left_distrib_of_nonneg_of_ne_top h2 (EReal.coe_ne_top 2),
    mul_assoc, mul_assoc, mul_comm (x 0), mul_comm (x 1)]

/-- The two spellings of the weight are one extended real. -/
theorem refW_eq_kerW (x θ : Fin 2 → EReal) : refW x θ = kerW x θ := by
  unfold refW kerW
  rw [Consts.ofBits_two, Consts.ofBits_neg_two, Consts.ofBits_half, Consts.ofBits_zero, zero_add, zero_add,
    cross_two, Ideal.div_coe (by norm_num : (1 / 2 : ℝ) ≠ 0)]
  congr 1
  rw [show ((1 / (1 / 2) : ℝ)) = 2 by norm_num, neg_mul, ← mul_neg, ← EReal.coe_neg]

/-- The one-hot entry: the comparison bit of a segment id against a column number, widened to a word and read as a
    signed integer. -/
def hot (w : BitVec 32) (b : ℕ) : EReal :=
  ((((IntOp.cmpi .eq w (BitVec.ofNat 32 b)).setWidth 32).toInt : ℝ) : EReal)

/-- A widened bit reads as itself. -/
theorem toInt_setWidth_bit : ∀ b : BitVec 1, (b.setWidth 32).toInt = (b.toNat : ℤ) := by decide

/-- For a column number below 2048 the one-hot entry is `1` when the segment id, read signed, is that number, and
    `0` otherwise (a negative or too large id matches no column). -/
theorem hot_eq (w : BitVec 32) (b : ℕ) (hb : b < 2048) :
    hot w b = if w.toInt = (b : ℤ) then 1 else 0 := by
  have hsm : (BitVec.ofNat 32 b).toInt = (b : ℤ) := StableHlo.Predicate.toInt_ofNat_small b (by omega)
  unfold hot
  rw [toInt_setWidth_bit]
  by_cases h : w = BitVec.ofNat 32 b
  · rw [StableHlo.Predicate.cmpi_eq_iff.mpr h, if_pos (by rw [h, hsm])]
    simp
  · have h0 : IntOp.cmpi .eq w (BitVec.ofNat 32 b) = 0#1 := by
      have := mt StableHlo.Predicate.cmpi_eq_iff.mp h
      revert this
      generalize IntOp.cmpi .eq w (BitVec.ofNat 32 b) = c
      revert c; decide
    rw [h0, if_neg (fun hw => h (BitVec.eq_of_toInt_eq (hw.trans hsm.symm)))]
    simp

/-- A weight times the one-hot entry keeps the weight on a match and is zero otherwise. -/
theorem mul_hot (a : EReal) (w : BitVec 32) (b : ℕ) (hb : b < 2048) :
    a * hot w b = if w.toInt = (b : ℤ) then a else 0 := by
  rw [hot_eq w b hb]
  split <;> simp

end Cert.Gauss

end
-- ==== Proof.KernelPayload.lean ====
/-
  The body's arithmetic at an index, on the extended reals.

  From a block of 2048 points `x0` (coordinate-major, [2, 2048]), their segment ids `x1` ([2048, 1]), the landmarks
  `x2` ([64, 2]) and the running output block `xo` ([64, 2048]), the body stores, at landmark `mm` and segment `b`,
      xo (mm, b) + ∑ q, w (mm, q) · h (q, b)
  where `w (mm, q)` is the Gaussian weight of point `q` of the block against landmark `mm` and `h (q, b)` is `1` when
  point `q`'s segment id is `b` and `0` otherwise.  The sums of squares are lane or sublane reductions broadcast back,
  the two products are matrix products into a zero accumulator, and a change of float format is the identity.
-/
import proofs.«401140_j30270929502733_1_alg».proof.Proof.Gen.KernelIdeal.Skeleton
import proofs.«401140_j30270929502733_1_alg».proof.Proof.LibMatProd
import proofs.«401140_j30270929502733_1_alg».proof.Proof.Weight
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx

/-- The squared length of each point of the block, copied down the 64 landmark rows: at `(mm, q)` it is
    `∑ j, x0 (j, q)²`. -/
theorem pts_sq_apply (v : FVec Ideal S2x2048 .f32) (mm : Fin 64) (q : Fin 2048) :
    broadcastTo S64x2048 (shapeCast S1x2048 (multiReduction .add [0] S2048 (mulf v v) 0x00000000#32
        reduces_S2x2048_S2048 (.inl rfl) rfl) shapeCasts_S2048_S1x2048) broadcasts_S1x2048_S64x2048 (ix2 mm q)
      = ∑ j : Fin 2, v (ix2 j q) * v (ix2 j q) := by
  refine (broadcastTo_1b_ab_apply _ broadcasts_S1x2048_S64x2048 mm q).trans ?_
  refine (shapeCast_a_1a_apply _ shapeCasts_S2048_S1x2048 (0 : Fin 1) q).trans ?_
  refine (Ideal.multiReduction_add_single (mulf v v) 0x00000000#32 reduces_S2x2048_S2048 (.inl rfl) rfl (ix1 q)).trans ?_
  refine Finset.sum_congr rfl fun j _ => ?_
  have e : reduces_S2x2048_S2048.lift (ix1 q) j = ix2 j q :=
    funext fun a => Fin.ext (by match a with | ⟨0, _⟩ => rfl | ⟨1, _⟩ => rfl)
  rw [e]; rfl

/-- The squared length of each landmark, copied along the 2048 lanes: at `(mm, q)` it is `∑ j, x2 (mm, j)²`. -/
theorem lm_sq_apply (u : FVec Ideal S64x2 .f32) (mm : Fin 64) (q : Fin 2048) :
    broadcastTo S64x2048 (shapeCast S64x1 (multiReduction .add [1] S64 (mulf u u) 0x00000000#32
        reduces_S64x2_S64 (.inl rfl) rfl) shapeCasts_S64_S64x1) broadcasts_S64x1_S64x2048 (ix2 mm q)
      = ∑ j : Fin 2, u (ix2 mm j) * u (ix2 mm j) := by
  refine (broadcastTo_apply _ broadcasts_S64x1_S64x2048 (ix2 mm q) (ix2 mm (0 : Fin 1)) (fun a => by
    match a with
    | ⟨0, _⟩ => show mm.val = if (64 : Nat) = 1 then 0 else mm.val; rw [if_neg (by decide)]
    | ⟨1, _⟩ => show 0 = if (1 : Nat) = 1 then 0 else q.val; rw [if_pos rfl])).trans ?_
  refine (shapeCast_apply _ shapeCasts_S64_S64x1 (ix2 mm (0 : Fin 1)) (ix1 mm) (by
    rw [Shape.rowMajor_val_two, Shape.rowMajor_val_one]
    show mm.val = mm.val * 1 + 0
    omega)).trans ?_
  refine (Ideal.multiReduction_add_single (mulf u u) 0x00000000#32 reduces_S64x2_S64 (.inl rfl) rfl (ix1 mm)).trans ?_
  refine Finset.sum_congr rfl fun j _ => ?_
  have e : reduces_S64x2_S64.lift (ix1 mm) j = ix2 mm j :=
    funext fun a => Fin.ext (by match a with | ⟨0, _⟩ => rfl | ⟨1, _⟩ => rfl)
  rw [e]; rfl

/-- The one-hot matrix: at `(q, b)` the comparison of point `q`'s segment id with the column number `b`, as a float. -/
theorem hot_apply (s : IVec S2048x1 32) (q b : Fin 2048) :
    (sitofp .f32 (extui 32 (cmpi .eq (broadcastTo S2048x2048 s broadcasts_S2048x1_S2048x2048)
        (iota .tc S2048x2048 32 [1] iota_S2048x2048_d1_w32)) natLt_1_32) : FVec Ideal S2048x2048 .f32) (ix2 q b)
      = Gauss.hot (s (ix2 q (0 : Fin 1))) b.val := by
  have hb : broadcastTo S2048x2048 s broadcasts_S2048x1_S2048x2048 (ix2 q b) = s (ix2 q (0 : Fin 1)) :=
    broadcastTo_apply s broadcasts_S2048x1_S2048x2048 (ix2 q b) (ix2 q (0 : Fin 1)) (fun a => by
      match a with
      | ⟨0, _⟩ => show q.val = if (2048 : Nat) = 1 then 0 else q.val; rw [if_neg (by decide)]
      | ⟨1, _⟩ => show 0 = if (1 : Nat) = 1 then 0 else b.val; rw [if_pos rfl])
  have hi : iota .tc S2048x2048 32 [1] iota_S2048x2048_d1_w32 (ix2 q b) = BitVec.ofNat 32 b.val :=
    iota_single_apply .tc S2048x2048 32 1 iota_S2048x2048_d1_w32 (ix2 q b)
  show ((((IntOp.cmpi .eq (broadcastTo S2048x2048 s broadcasts_S2048x1_S2048x2048 (ix2 q b))
      (iota .tc S2048x2048 32 [1] iota_S2048x2048_d1_w32 (ix2 q b))).setWidth 32).toInt : ℝ) : EReal) = _
  rw [hb, hi]
  rfl

/-- The landmarks-by-points inner products: at `(mm, q)` it is `∑ j, x2 (mm, j) · x0 (j, q)`. -/
theorem cross_apply (u : FVec Ideal S64x2 .f32) (v : FVec Ideal S2x2048 .f32) (mm : Fin 64) (q : Fin 2048) :
    matmul dot_S64x2_S2x2048_S64x2048_1_0_0_1_n_n none (truncf .bf16 u bitsLt_bf16_f32) (truncf .bf16 v bitsLt_bf16_f32)
        (constant S64x2048 .f32 0x00000000#32) (ix2 mm q)
      = ∑ j : Fin 2, u (ix2 mm j) * v (ix2 j q) :=
  LibMatProd.matmul_zero_apply (A := 64) (K := 2) (B := 2048) dot_S64x2_S2x2048_S64x2048_1_0_0_1_n_n rfl none
    (truncf .bf16 u bitsLt_bf16_f32) (truncf .bf16 v bitsLt_bf16_f32) mm q

/-- The block of weights the body computes: `exp ((|point|² + |landmark|² - 2 · inner product) · (-2))`. -/
def wblk (v : FVec Ideal S2x2048 .f32) (u : FVec Ideal S64x2 .f32) : FVec Ideal S64x2048 .f32 :=
  exp (mulf (subf
    (addf
      (broadcastTo S64x2048 (shapeCast S1x2048 (multiReduction .add [0] S2048 (mulf v v) 0x00000000#32
        reduces_S2x2048_S2048 (.inl rfl) rfl) shapeCasts_S2048_S1x2048) broadcasts_S1x2048_S64x2048)
      (broadcastTo S64x2048 (shapeCast S64x1 (multiReduction .add [1] S64 (mulf u u) 0x00000000#32
        reduces_S64x2_S64 (.inl rfl) rfl) shapeCasts_S64_S64x1) broadcasts_S64x1_S64x2048))
    (mulf (broadcast S64x2048 (Scalar.ofBits .f32 0x40000000#32))
      (matmul dot_S64x2_S2x2048_S64x2048_1_0_0_1_n_n none (truncf .bf16 u bitsLt_bf16_f32) (truncf .bf16 v bitsLt_bf16_f32)
        (constant S64x2048 .f32 0x00000000#32))))
    (broadcast S64x2048 (Scalar.ofBits .f32 0xC0000000#32)))

/-- Entry `(mm, q)` of the weight block is the Gaussian weight of point `q` against landmark `mm`. -/
theorem wblk_apply (v : FVec Ideal S2x2048 .f32) (u : FVec Ideal S64x2 .f32) (mm : Fin 64) (q : Fin 2048) :
    wblk v u (ix2 mm q) = Gauss.kerW (fun j => v (ix2 j q)) (fun j => u (ix2 mm j)) := by
  unfold wblk Gauss.kerW
  refine congrArg Ideal.exp ?_
  refine congrArg (· * Ideal.ofBits .f32 0xC0000000#32) ?_
  refine congrArg₂ (· - ·) (congrArg₂ (· + ·) (pts_sq_apply v mm q) (lm_sq_apply u mm q)) ?_
  exact congrArg (Ideal.ofBits .f32 0x40000000#32 * ·) (cross_apply u v mm q)

/-- The one-hot block. -/
def hblk (s : IVec S2048x1 32) : FVec Ideal S2048x2048 .f32 :=
  sitofp .f32 (extui 32 (cmpi .eq (broadcastTo S2048x2048 s broadcasts_S2048x1_S2048x2048)
    (iota .tc S2048x2048 32 [1] iota_S2048x2048_d1_w32)) natLt_1_32)

/-- The stored value is the running block plus the product of the weight block with the one-hot block. -/
theorem pay2_eq (x0 : Vec Ideal S2x2048 .f32) (x2 : Vec Ideal S64x2 .f32) (x1 : Vec Ideal S2048x1 .i32) (xo : Vec Ideal S64x2048 .f32) :
    k0_pay2 (F := Ideal) x0 x2 x1 xo
      = addf xo (matmul dot_S64x2048_S2048x2048_S64x2048_1_0_0_1_n_n none (truncf .bf16 (wblk x0 x2) bitsLt_bf16_f32)
          (truncf .bf16 (hblk x1) bitsLt_bf16_f32) (constant S64x2048 .f32 0x00000000#32)) := by
  unfold k0_pay2 wblk hblk
  simp only [shapeCast_self]

/-- The stored value at landmark `mm`, segment `b`. -/
theorem pay2_apply (x0 : Vec Ideal S2x2048 .f32) (x2 : Vec Ideal S64x2 .f32) (x1 : Vec Ideal S2048x1 .i32) (xo : Vec Ideal S64x2048 .f32)
    (mm : Fin 64) (b : Fin 2048) :
    k0_pay2 (F := Ideal) x0 x2 x1 xo (ix2 mm b)
      = xo (ix2 mm b) + ∑ q : Fin 2048, Gauss.kerW (fun j => x0 (ix2 j q)) (fun j => x2 (ix2 mm j))
          * Gauss.hot (x1 (ix2 q (0 : Fin 1))) b.val := by
  rw [pay2_eq]
  refine congrArg (xo (ix2 mm b) + ·) ?_
  refine (LibMatProd.matmul_zero_apply (A := 64) (K := 2048) (B := 2048) dot_S64x2048_S2048x2048_S64x2048_1_0_0_1_n_n rfl none
    (truncf .bf16 (wblk x0 x2) bitsLt_bf16_f32) (truncf .bf16 (hblk x1) bitsLt_bf16_f32) mm b).trans ?_
  refine Finset.sum_congr rfl fun q _ => ?_
  exact congrArg₂ (· * ·) (wblk_apply x0 x2 mm q) (hot_apply x1 q b)

end Cert.KernelIdeal.Payload

end
-- ==== Proof.BlockSum.lean ====
/-
  The 1048576 points as 512 consecutive blocks of 2048: a sum over all points is the sum over the blocks of the sums
  inside each block, and a sum over the first `n + 2` blocks is the sum over the first `n + 1` plus block `n + 1`'s term.
-/
import Mathlib.Algebra.BigOperators.Fin
import Mathlib.Logic.Equiv.Fin.Basic

open scoped BigOperators

namespace Cert.BlockSum

/-- Position `q` of block `t` is point `2048 t + q`. -/
def pt (t : Fin 512) (q : Fin 2048) : Fin 1048576 := ⟨2048 * t.val + q.val, by omega⟩

theorem pt_val (t : Fin 512) (q : Fin 2048) : (pt t q).val = 2048 * t.val + q.val := rfl

/-- (block, position) pairs are the points. -/
def ptEquiv : Fin 512 × Fin 2048 ≃ Fin 1048576 :=
  (finProdFinEquiv (m := 512) (n := 2048)).trans (finCongr (rfl : 512 * 2048 = 1048576))

theorem ptEquiv_apply (x : Fin 512 × Fin 2048) : ptEquiv x = pt x.1 x.2 :=
  Fin.ext (by
    show x.2.val + 2048 * x.1.val = 2048 * x.1.val + x.2.val
    omega)

/-- A sum over all points, block by block. -/
theorem sum_blocks {M : Type*} [AddCommMonoid M] (g : Fin 1048576 → M) :
    ∑ t : Fin 512, ∑ q : Fin 2048, g (pt t q) = ∑ e : Fin 1048576, g e := by
  rw [← Equiv.sum_comp ptEquiv g, Fintype.sum_prod_type]
  exact Finset.sum_congr rfl fun t _ => Finset.sum_congr rfl fun q _ => by rw [ptEquiv_apply]

/-- One more block. -/
theorem prefix_succ {M : Type*} [AddCommMonoid M] (g : (n : ℕ) → n < 512 → M) (n : ℕ) (h : n + 1 < 512) :
    (∑ t : Fin (n + 2), g t.val (by have := t.isLt; omega))
      = (∑ t : Fin (n + 1), g t.val (by have := t.isLt; omega)) + g (n + 1) h :=
  Fin.sum_univ_castSucc (fun t : Fin (n + 2) => g t.val (by have := t.isLt; omega))

/-- The first block alone. -/
theorem prefix_zero {M : Type*} [AddCommMonoid M] (g : (n : ℕ) → n < 512 → M) (h : 0 < 512) :
    (∑ t : Fin (0 + 1), g t.val (by have := t.isLt; omega)) = g 0 h := by
  simp

/-- All 512 blocks. -/
theorem prefix_all {M : Type*} [AddCommMonoid M] (g : (n : ℕ) → n < 512 → M) :
    (∑ t : Fin (511 + 1), g t.val (by have := t.isLt; omega)) = ∑ t : Fin 512, g t.val t.isLt := rfl

end Cert.BlockSum
-- ==== Proof.KernelBlocks.lean ====
/-
  What the kernel's three input blocks hold at grid point `t`, in terms of the arguments.

  The host transposes the points to coordinate-major [2, 1048576] and views the segment ids as a column [1048576, 1]
  before the region.  Grid point `t` is handed columns `2048 t … 2048 t + 2047` of the transposed points, rows
  `2048 t … 2048 t + 2047` of the id column, and all 64 landmarks.  So position `q` of each block is point
  `2048 t + q` of the arguments.
-/
import proofs.«401140_j30270929502733_1_alg».proof.Proof.Gen.KernelIdeal.Frame
import proofs.«401140_j30270929502733_1_alg».proof.Proof.BlockSum
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelIdeal.Blocks

open Cert.KernelIdeal Cert.KernelIdeal.Gen
open Idealize.ShloMosaic Idealize.ShloMosaic.TcCoe Idealize.SL.Sem Idealize.ShloMosaic.ValueIdx
open Cert.BlockSum (pt)

variable {F : FTy → Type} [FloatOps F]
variable (m : (ℓ : Loc nD τ sig) → Buf (Elt F) ℓ)

/-- A grid point as a block number below 512. -/
abbrev blockNo (t : Fin cfg0.N) : Fin 512 := ⟨t.val, lt_of_lt_of_eq t.isLt (show cfg0.N = 512 from N_0)⟩

/-- The region finds the transposed points in window 0's array. -/
theorem V_pts (c : Dev nD) :
    (V m c main_v0 : S2x1048576.Idx → Elt F .f32)
      = transpose S2x1048576 [1, 0] (m ((c : Thread nD τ).loc main_arg0)) transposes_S1048576x2_S2x1048576_1_0 := by
  show StableHlo.after hostOps0 (fun b => m (c, b)) (Proc.devRef .tc main_v0) = _
  after_results

/-- The region finds the segment ids, viewed as a column, in window 1's array. -/
theorem V_seg (c : Dev nD) :
    (V m c main_v1 : S1048576x1.Idx → Elt F .i32)
      = shapeCast S1048576x1 (m ((c : Thread nD τ).loc main_arg1)) shapeCasts_S1048576_S1048576x1 := by
  show StableHlo.after hostOps0 (fun b => m (c, b)) (Proc.devRef .tc main_v1) = _
  after_results
  rfl

/-- Window 0 walks along the columns: block `(0, t)`. -/
theorem index0 : ∀ t : Fin cfg0.N, win0_0.index t 0 = 0 ∧ win0_0.index t 1 = t.val :=
  (by decide +kernel : ∀ t : Fin grid0.N, win0_0.index t 0 = 0 ∧ win0_0.index t 1 = t.val)
/-- Window 1 walks down the rows: block `(t, 0)`. -/
theorem index1 : ∀ t : Fin cfg0.N, win0_1.index t 0 = t.val ∧ win0_1.index t 1 = 0 :=
  (by decide +kernel : ∀ t : Fin grid0.N, win0_1.index t 0 = t.val ∧ win0_1.index t 1 = 0)
/-- Window 2 stays on its one block. -/
theorem index2 : ∀ t : Fin cfg0.N, win0_2.index t 0 = 0 ∧ win0_2.index t 1 = 0 :=
  (by decide +kernel : ∀ t : Fin grid0.N, win0_2.index t 0 = 0 ∧ win0_2.index t 1 = 0)

/-- Coordinate `j` of position `q` of the points' block at `t` is coordinate `j` of point `2048 t + q`. -/
theorem pts_blk_apply (c : Dev nD) (t : Fin cfg0.N) (j : Fin 2) (q : Fin 2048) :
    (iblk m c 0 t : Vec F S2x2048 .f32) (ix2 j q) = m ((c : Thread nD τ).loc main_arg0) (ix2 (pt (blockNo t) q) j) := by
  unfold iblk
  rw [View.read_apply]
  show V m c main_v0 _ = _
  rw [V_pts]
  have he : ((cfg0.win 0).blk t).view.emb (ix2 j q) = (ix2 j (pt (blockNo t) q) : S2x1048576.Idx) :=
    funext fun a => Fin.ext (by
      match a with
      | ⟨0, _⟩ => show win0_0.index t 0 * 2 + 1 * j.val = j.val; rw [(index0 t).1]; omega
      | ⟨1, _⟩ => show win0_0.index t 1 * 2048 + 1 * q.val = 2048 * t.val + q.val; rw [(index0 t).2]; omega)
  rw [he]
  exact transpose_ix2_apply _ _ j (pt (blockNo t) q)

/-- Position `q` of the ids' block at `t` is the segment id of point `2048 t + q`. -/
theorem seg_blk_apply (c : Dev nD) (t : Fin cfg0.N) (q : Fin 2048) :
    (iblk m c 1 t : Vec F S2048x1 .i32) (ix2 q (0 : Fin 1)) = m ((c : Thread nD τ).loc main_arg1) (ix1 (pt (blockNo t) q)) := by
  unfold iblk
  rw [View.read_apply]
  show V m c main_v1 _ = _
  rw [V_seg]
  have he : ((cfg0.win 1).blk t).view.emb (ix2 q (0 : Fin 1)) = (ix2 (pt (blockNo t) q) (0 : Fin 1) : S1048576x1.Idx) :=
    funext fun a => Fin.ext (by
      match a with
      | ⟨0, _⟩ => show win0_1.index t 0 * 2048 + 1 * q.val = 2048 * t.val + q.val; rw [(index1 t).1]; omega
      | ⟨1, _⟩ => show win0_1.index t 1 * 1 + 1 * 0 = 0; rw [(index1 t).2])
  rw [he]
  exact shapeCast_apply _ shapeCasts_S1048576_S1048576x1 (ix2 (pt (blockNo t) q) (0 : Fin 1)) (ix1 (pt (blockNo t) q)) (by
    rw [Shape.rowMajor_val_two, Shape.rowMajor_val_one]
    show (pt (blockNo t) q).val = (pt (blockNo t) q).val * 1 + 0
    omega)

/-- The landmarks' block is the landmarks. -/
theorem lm_blk_apply (c : Dev nD) (t : Fin cfg0.N) (mm : Fin 64) (j : Fin 2) :
    (iblk m c 2 t : Vec F S64x2 .f32) (ix2 mm j) = m ((c : Thread nD τ).loc main_arg2) (ix2 mm j) := by
  unfold iblk
  rw [View.read_apply]
  show V m c main_arg2 _ = _
  rw [V_main_arg2]
  have he : ((cfg0.win 2).blk t).view.emb (ix2 mm j) = (ix2 mm j : S64x2.Idx) :=
    funext fun a => Fin.ext (by
      match a with
      | ⟨0, _⟩ => show win0_2.index t 0 * 64 + 1 * mm.val = mm.val; rw [(index2 t).1]; omega
      | ⟨1, _⟩ => show win0_2.index t 1 * 2 + 1 * j.val = j.val; rw [(index2 t).2]; omega)
  rw [he]

end Cert.KernelIdeal.Blocks

end
-- ==== Proof.KernelAcc.lean ====
/-
  The kernel's result, as a function of the arguments, on the extended reals.

  The output block `[64 landmarks, 2048 segments]` never moves: the first grid point starts it from zeros, every point
  adds its own contribution, and only the last point writes it back.  Point `t`'s contribution at `(mm, b)` is the sum
  over the block's 2048 positions `q` of the weight of point `2048 t + q` against landmark `mm`, times the one-hot
  entry of that point's segment id at `b`.  By induction on the point, after point `n` the block holds the sum of the
  contributions of points `0 … n`; after the last, the sum over all 1048576 points; and a weight times the one-hot
  entry keeps exactly the points whose segment id is `b`.  The host operations after the region transpose this array,
  multiply by the transposed dense weights and add the bias.
-/
import proofs.«401140_j30270929502733_1_alg».proof.Proof.KernelPieces
import proofs.«401140_j30270929502733_1_alg».proof.Proof.KernelPayload
import proofs.«401140_j30270929502733_1_alg».proof.Proof.KernelBlocks
import proofs.«401140_j30270929502733_1_alg».proof.Proof.BlockSum
import proofs.«401140_j30270929502733_1_alg».proof.Proof.Weight
import Idealize.ShloMosaic.Lib.Pipeline.Value
import Idealize.ShloMosaic.Lib.StableHlo.Run
import Idealize.ShloMosaic.Lib.Tactic

noncomputable section

open scoped BigOperators

namespace Cert.KernelIdeal.FeatValue

open Cert.KernelIdeal Cert.KernelIdeal.Gen
open Idealize.ShloMosaic Idealize.ShloMosaic.TcCoe Idealize.SL.Sem Idealize.ShloMosaic.ValueIdx
open Idealize.ShloMosaic.Pipeline (Dat)
open Cert.BlockSum (pt)
open Cert.KernelIdeal.Blocks (blockNo)

variable (m : (ℓ : Loc nD τ sig) → Buf (Elt Ideal) ℓ) (ρ : Dev nD → PrngReg)

/-- The points, the segment ids and the landmarks as launched. -/
abbrev X (c : Dev nD) : S1048576x2.Idx → EReal := m ((c : Thread nD τ).loc main_arg0)
abbrev S (c : Dev nD) : S1048576.Idx → BitVec 32 := m ((c : Thread nD τ).loc main_arg1)
abbrev L (c : Dev nD) : S64x2.Idx → EReal := m ((c : Thread nD τ).loc main_arg2)

/-- What block `n` of the points adds at `(mm, b)`. -/
def contrib (c : Dev nD) (mm : Fin 64) (b : Fin 2048) (n : ℕ) (hn : n < 512) : EReal :=
  ∑ q : Fin 2048, Gauss.kerW (fun j => X m c (ix2 (pt ⟨n, hn⟩ q) j)) (fun j => L m c (ix2 mm j)) * Gauss.hot (S m c (ix1 (pt ⟨n, hn⟩ q))) b.val

/-- The three input blocks at a point, at their literal types. -/
abbrev xblk (c : Dev nD) (t : Fin cfg0.N) : Vec Ideal S2x2048 .f32 := iblk m c 0 t
abbrev sblk (c : Dev nD) (t : Fin cfg0.N) : Vec Ideal S2048x1 .i32 := iblk m c 1 t
abbrev lblk (c : Dev nD) (t : Fin cfg0.N) : Vec Ideal S64x2 .f32 := iblk m c 2 t

/-- One point's step at `(mm, b)`: the running entry plus that block's contribution. -/
theorem step_apply (c : Dev nD) (t : Fin cfg0.N) (xo : Vec Ideal S64x2048 .f32) (mm : Fin 64) (b : Fin 2048) :
    k0_pay2 (F := Ideal) (xblk m c t) (lblk m c t) (sblk m c t) xo (ix2 mm b)
      = xo (ix2 mm b) + contrib m c mm b t.val (blockNo t).isLt := by
  refine (Payload.pay2_apply (xblk m c t) (lblk m c t) (sblk m c t) xo mm b).trans ?_
  refine congrArg (xo (ix2 mm b) + ·) (Finset.sum_congr rfl fun q _ => ?_)
  have h0 : (fun j => xblk m c t (ix2 j q)) = fun j => X m c (ix2 (pt (blockNo t) q) j) :=
    funext fun j => Blocks.pts_blk_apply m c t j q
  have h2 : (fun j => lblk m c t (ix2 mm j)) = fun j => L m c (ix2 mm j) :=
    funext fun j => Blocks.lm_blk_apply m c t mm j
  have h1 : sblk m c t (ix2 q (0 : Fin 1)) = S m c (ix1 (pt (blockNo t) q)) := Blocks.seg_blk_apply m c t q
  rw [h0, h2, h1]

/-- The zero block the first point starts from. -/
theorem zero_apply (mm : Fin 64) (b : Fin 2048) : k0_pay1 (F := Ideal) (ix2 mm b) = 0 :=
  Consts.ofBits_zero

theorem lt_N {n : ℕ} (h : n < 512) : n < cfg0.N := lt_of_lt_of_eq h (show (512 : ℕ) = cfg0.N from N_0.symm)

/-- THE ACCUMULATION: after point `n` the output block holds, at `(mm, b)`, the contributions of blocks `0 … n`. -/
theorem acc_apply (c : Dev nD) (mm : Fin 64) (b : Fin 2048) : ∀ (n : ℕ) (h : n < 512),
    outsAt0 m c n (lt_N h) (ix2 mm b)
      = ∑ t : Fin (n + 1), contrib m c mm b t.val (by have := t.isLt; omega)
  | 0, h => by
    have e0 : outsAt0 m c 0 (lt_N h)
        = k0_pay2 (F := Ideal) (xblk m c ⟨0, lt_N h⟩) (lblk m c ⟨0, lt_N h⟩) (sblk m c ⟨0, lt_N h⟩) (k0_pay1 (F := Ideal)) :=
      (outsAt0_A m c ⟨0, lt_N h⟩ rfl).trans
        (Pieces.out_A (F := Ideal) c (grid0.coords ⟨0, lt_N h⟩) (ms0_0 ⟨0, lt_N h⟩) (hs0_0 ⟨0, lt_N h⟩) (ms0_1 ⟨0, lt_N h⟩)
          (hs0_1 ⟨0, lt_N h⟩) (ms0_2 ⟨0, lt_N h⟩) (hs0_2 ⟨0, lt_N h⟩) (ms0_3 ⟨0, lt_N h⟩) (hs0_3 ⟨0, lt_N h⟩)
          ((hcond0_0 ⟨0, lt_N h⟩).mpr rfl) (xblk m c ⟨0, lt_N h⟩) (sblk m c ⟨0, lt_N h⟩) (lblk m c ⟨0, lt_N h⟩))
    rw [e0]
    refine (step_apply m c ⟨0, lt_N h⟩ (k0_pay1 (F := Ideal)) mm b).trans ?_
    rw [zero_apply, zero_add]
    exact (BlockSum.prefix_zero (fun k hk => contrib m c mm b k hk) h).symm
  | n + 1, h => by
    have hB : ¬(⟨n + 1, lt_N h⟩ : Fin cfg0.N).val % 512 = 0 := by dsimp only; omega
    have e1 : outsAt0 m c (n + 1) (lt_N h)
        = k0_pay2 (F := Ideal) (xblk m c ⟨n + 1, lt_N h⟩) (lblk m c ⟨n + 1, lt_N h⟩) (sblk m c ⟨n + 1, lt_N h⟩)
            (outsAt0 m c n (lt_N (Nat.lt_of_succ_lt h))) :=
      (outsAt0_B m c ⟨n + 1, lt_N h⟩ hB).trans
        (Pieces.out_B (F := Ideal) c (grid0.coords ⟨n + 1, lt_N h⟩) (ms0_0 ⟨n + 1, lt_N h⟩) (hs0_0 ⟨n + 1, lt_N h⟩)
          (ms0_1 ⟨n + 1, lt_N h⟩) (hs0_1 ⟨n + 1, lt_N h⟩) (ms0_2 ⟨n + 1, lt_N h⟩) (hs0_2 ⟨n + 1, lt_N h⟩)
          (ms0_3 ⟨n + 1, lt_N h⟩) (hs0_3 ⟨n + 1, lt_N h⟩) (fun hh => hB ((hcond0_0 ⟨n + 1, lt_N h⟩).mp hh))
          (xblk m c ⟨n + 1, lt_N h⟩) (sblk m c ⟨n + 1, lt_N h⟩) (lblk m c ⟨n + 1, lt_N h⟩)
          (outsAt0 m c n (lt_N (Nat.lt_of_succ_lt h))))
    rw [e1]
    refine (step_apply m c ⟨n + 1, lt_N h⟩ (outsAt0 m c n (lt_N (Nat.lt_of_succ_lt h))) mm b).trans ?_
    rw [acc_apply c mm b n (Nat.lt_of_succ_lt h)]
    exact (BlockSum.prefix_succ (fun k hk => contrib m c mm b k hk) n h).symm

/-- The last grid point. -/
abbrev tLast : Fin cfg0.N := ⟨511, lt_N (by decide)⟩

/-- The output block after the last point: what the one write-back writes. -/
def featsT (c : Dev nD) : Vec Ideal S64x2048 .f32 := outsAt0 m c 511 (lt_N (by decide))

theorem featsT_def (c : Dev nD) : featsT m c = outsAt0 m c (tLast).val (tLast).isLt := rfl

/-- Entry `(mm, b)` of it: the weights against landmark `mm` of the points whose segment id is `b`. -/
theorem featsT_apply (c : Dev nD) (mm : Fin 64) (b : Fin 2048) :
    featsT m c (ix2 mm b)
      = ∑ e : Fin 1048576, if (S m c (ix1 e)).toInt = (b.val : ℤ) then Gauss.kerW (fun j => X m c (ix2 e j)) (fun j => L m c (ix2 mm j)) else 0 := by
  unfold featsT
  refine (acc_apply m c mm b 511 (by decide)).trans ?_
  refine (BlockSum.prefix_all (fun k hk => contrib m c mm b k hk)).trans ?_
  have hb : ∀ t : Fin 512, contrib m c mm b t.val t.isLt
      = ∑ q : Fin 2048, (fun e : Fin 1048576 => Gauss.kerW (fun j => X m c (ix2 e j)) (fun j => L m c (ix2 mm j)) * Gauss.hot (S m c (ix1 e)) b.val) (pt t q) := fun t => rfl
  rw [Finset.sum_congr rfl fun t _ => hb t]
  refine (BlockSum.sum_blocks (fun e : Fin 1048576 => Gauss.kerW (fun j => X m c (ix2 e j)) (fun j => L m c (ix2 mm j)) * Gauss.hot (S m c (ix1 e)) b.val)).trans ?_
  exact Finset.sum_congr rfl fun e _ => Gauss.mul_hot _ _ _ b.isLt

end Cert.KernelIdeal.FeatValue

end
-- ==== Proof.KernelFinal.lean ====
/-
  The region's result array after the run.

  The output window sits on block `(0, 0)` at every point, and that block is the whole `[64, 2048]` array; only the
  last grid point writes it back.  So the array ends holding exactly what the last point left in the block.
-/
import proofs.«401140_j30270929502733_1_alg».proof.Proof.KernelAcc

noncomputable section

namespace Cert.KernelIdeal.FeatValue

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The output window stays on its one block, -/
theorem index3 : ∀ t : Fin cfg0.N, win0_3.index t 0 = 0 ∧ win0_3.index t 1 = 0 :=
  (by decide +kernel : ∀ t : Fin grid0.N, win0_3.index t 0 = 0 ∧ win0_3.index t 1 = 0)
/-- which is never clipped. -/
theorem xsize3 : ∀ t : Fin cfg0.N, win0_3.xsize (grid0.coords t) 0 = 64 ∧ win0_3.xsize (grid0.coords t) 1 = 2048 :=
  (by decide +kernel : ∀ t : Fin grid0.N, win0_3.xsize (grid0.coords t) 0 = 64 ∧ win0_3.xsize (grid0.coords t) 1 = 2048)

/-- An unclipped block is written back as it is. -/
theorem cut3 (t : Fin cfg0.N) (Y : Vec Ideal S64x2048 .f32) : (cfg0.win 3).cut (grid0.coords t) Y = Y := rfl

/-- The array read through block `(0, 0)` of full size is the array. -/
theorem read3 (c : Dev nD) (f : Buf (Elt Ideal) ((c : Thread nD τ).loc main_v2)) :
    ((cfg0.win 3).blk tLast).view.read (Elt Ideal) f = f := by
  have hz' : (fun a => win0_3.index tLast a * main_v2.ty.shape.size a) = fun _ => 0 := funext fun a => by
    match a with
    | ⟨0, _⟩ => show win0_3.index tLast 0 * 64 = 0; rw [(index3 tLast).1]
    | ⟨1, _⟩ => show win0_3.index tLast 1 * 2048 = 0; rw [(index3 tLast).2]
  exact Memref.read_access_unit_zero (Elt Ideal) main_v2 hz' (fun a => by rw [congrFun hz' a]; simp) f

/-- The one write-back, at the last point, writes the block the last point left. -/
theorem flushed_eq (c : Dev nD) (t : Fin cfg0.N) (hf : (cfg0.win 3).flush t = true) :
    (dats m 0 c).flushed 3 t = ((cfg0.win 3).blk t).view.read (Elt Ideal) (featsT m c) := by
  have hN : cfg0.N = 512 := N_0
  have h511 : t.val = 511 := by have := (flush0_3 t).mp hf; have := t.isLt; omega
  obtain rfl : t = tLast := Fin.ext h511
  rw [read3 c]
  show (cfg0.win 3).cut (grid0.coords tLast) ((dats m 0 c).after 3 tLast) = _
  rw [after0_3, cut3]
  exact (featsT_def m c).symm

/-- So the region's result array ends holding the block after the last point. -/
theorem final (c : Dev nD) : (dats m 0 c).arrAt 3 cfg0.N = featsT m c :=
  (dats m 0 c).arrAt_eq_of_cover 3 (featsT m c) (flushed_eq m c) fun i =>
    ⟨tLast, (flush0_3 tLast).mpr rfl, by
      show i ∈ ((View.whole main_v2).slice (win0_3.rect tLast)).set
      rw [View.set_slice_whole, Rect.mem_set_unit]
      intro a
      have h0 : (i 0 : Nat) < 64 := (i 0).isLt
      have h1 : (i 1 : Nat) < 2048 := (i 1).isLt
      match a with
      | ⟨0, _⟩ =>
        show win0_3.index tLast 0 * win0_3.size 0 ≤ (i 0 : Nat)
          ∧ (i 0 : Nat) < win0_3.index tLast 0 * win0_3.size 0 + win0_3.xsize (grid0.coords tLast) 0
        rw [(index3 tLast).1, (xsize3 tLast).1]; omega
      | ⟨1, _⟩ =>
        show win0_3.index tLast 1 * win0_3.size 1 ≤ (i 1 : Nat)
          ∧ (i 1 : Nat) < win0_3.index tLast 1 * win0_3.size 1 + win0_3.xsize (grid0.coords tLast) 1
        rw [(index3 tLast).2, (xsize3 tLast).2]; omega⟩

end Cert.KernelIdeal.FeatValue

end
-- ==== Proof.KernelTail.lean ====
/-
  The host operations after the region, at any float instance: the program's result buffer ends holding the bias added
  to the product of the transposed region result with the transposed dense weights.
-/
import proofs.«401140_j30270929502733_1_alg».proof.Proof.Gen.KernelIdeal.Frame
import Idealize.ShloMosaic.Lib.Pipeline.Value
import Idealize.ShloMosaic.Lib.StableHlo.Run
import Idealize.ShloMosaic.Lib.Tactic

noncomputable section

namespace Cert.KernelIdeal.TailValue

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The tail as one function of the region's result `[64, 2048]`, the dense weights `[10, 64]` and the bias `[10]`. -/
def tailOf (ft : FVec F S64x2048 .f32) (W : FVec F S10x64 .f32) (B : FVec F S10 .f32) : FVec F S2048x10 .f32 :=
  addf
    (Host.dotGeneral dot_S2048x64_S64x10_S2048x10_1_0_0_1_n_n none
      (transpose S2048x64 [1, 0] ft transposes_S64x2048_S2048x64_1_0)
      (transpose S64x10 [1, 0] W transposes_S10x64_S64x10_1_0))
    (broadcastInDim S2048x10 ![0, 1] bcast_S1x10_S2048x10_0_1 (broadcastInDim S1x10 ![1] bcast_S10_S1x10_1 B))

/-- What the program's result buffer ends holding, over the region's final result array. -/
theorem tail_eq (c : Dev nD) :
    Pipeline.afterTail₀ cfgs (dats m) 0 (V0 m) [hostOps1] c main_v8
      = tailOf ((dats m 0 c).arrAt 3 cfg0.N) (m ((c : Thread nD τ).loc main_arg3)) (m ((c : Thread nD τ).loc main_arg4)) := by
  unfold Pipeline.afterTail₀
  show StableHlo.after hostOps1 _ (Proc.devRef .tc main_v8) = _
  after_results
  have h2 : Pipeline.withArrays (cfgs 0).spec c (V0 m c) (fun w => (dats m 0 c).arrAt w (cfgs 0).N) (Proc.devRef .tc main_v2)
      = (dats m 0 c).arrAt 3 cfg0.N :=
    Pipeline.withArrays_arr spec0 launch0.win.arr_inj c (V0 m c) (fun w => (dats m 0 c).arrAt w (cfgs 0).N) 3
  have h3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3
      (by exact (by decide : ∀ w, Pipeline.arrRef spec0 w ≠ main_arg3))).trans (V_main_arg3 m c)
  have h4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4
      (by exact (by decide : ∀ w, Pipeline.arrRef spec0 w ≠ main_arg4))).trans (V_main_arg4 m c)
  rw [h2, h3, h4]
  rfl

end Cert.KernelIdeal.TailValue

end
-- ==== Proof.KernelRun.lean ====
/-
  The idealized kernel's run, read: every weakly fair execution terminates with the result buffer holding the host tail
  of the accumulated features and every argument unchanged.
-/
import proofs.«401140_j30270929502733_1_alg».proof.Proof.KernelFinal
import proofs.«401140_j30270929502733_1_alg».proof.Proof.KernelTail

noncomputable section

namespace Cert.KernelIdeal.FeatValue

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The program's result: the bias plus the product of the transposed features with the transposed dense weights. -/
def result (c : Dev nD) : Buf (Elt Ideal) ((c : Thread nD τ).loc main_v8) :=
  TailValue.tailOf (F := Ideal) (featsT m c) (m ((c : Thread nD τ).loc main_arg3)) (m ((c : Thread nD τ).loc main_arg4))

/-- The result buffer after the run. -/
theorem result_eq (c : Dev nD) :
    Pipeline.afterTail₀ cfgs (dats m) 0 (V0 m) [hostOps1] c main_v8 = result m c := by
  rw [TailValue.tail_eq, final]
  rfl

/-- The run: the result buffer at `result`, the five arguments as launched. -/
theorem run : θ_run defs (onTc (τ := τ) (main (F := Ideal))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.FeatValue

end
-- ==== Proof.LibSegment.lean ====
/-
  General lemmas: the host's segment sum (a float scatter-add whose scatter indices are an [M, 1] column of row
  numbers), read at an index on the extended reals.

  A segment sum into `N` rows adds update `e` to row `i` exactly when the `e`-th start index, read as a signed integer,
  is `i`; an index outside `[0, N)` matches no row, so its update is dropped.
-/
import Idealize.ShloMosaic.PureOps.Ideal
import Idealize.ShloMosaic.PureOps.Ideal.Laws
import Idealize.ShloMosaic.Lib.ValueIdx
import Idealize.ShloMosaic.Lib.ValueIdxRank1
import Idealize.ShloMosaic.Lib.StableHlo.Predicate

noncomputable section

open scoped BigOperators

namespace Cert.LibSegment

open Idealize.ShloMosaic Idealize.ShloMosaic.ValueIdx Idealize.ShloMosaic.StableHlo.Predicate

/-- The dimension numbers of a segment sum of scalars: operand [N], segment ids as an [M, 1] column, updates [M]. -/
def segDims1 (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The dimension numbers of a segment sum of rows: operand [N, C], segment ids as an [M, 1] column, updates [M, C]. -/
def segDims2 (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-! ## Scalars: operand [N], updates [M]

The operand's one axis is the start-indexed axis and is inserted (no window axis goes to it), so update `e` lands at
row `start`, the `e`-th entry of the index column read signed. -/

/-- The window's start on the operand's axis for update `e`: entry `e` of the index column, read signed. -/
theorem start1_0 {N M w : Nat} (wf : ScatterDims.WF ⟨1, ![N]⟩ ⟨2, ![M, 1]⟩ ⟨1, ![M]⟩ [] [0] [0] 1)
    (idx : IVec ⟨2, ![M, 1]⟩ w) (e : Fin M) :
    (segDims1 N M wf).start (ix1 e) idx 0 = (idx (ixP e)).toInt := by
  unfold ScatterDims.start
  rw [dif_pos (show (0 : Fin 1) ∈ (segDims1 N M wf).scatterDimsToOperandDims from List.mem_singleton.mpr rfl)]
  congr 2
  funext b
  match b with
  | ⟨0, _⟩ => rfl
  | ⟨1, _⟩ => rfl

/-- The operand's axis is inserted, so the window coordinate on it is zero. -/
theorem window1_0 {N M : Nat} (wf : ScatterDims.WF ⟨1, ![N]⟩ ⟨2, ![M, 1]⟩ ⟨1, ![M]⟩ [] [0] [0] 1)
    (j : (⟨1, ![M]⟩ : Shape).Idx) :
    (segDims1 N M wf).window j 0 = 0 := by
  unfold ScatterDims.window
  have h : (0 : Fin 1) ∉ (segDims1 N M wf).sKept :=
    (by decide : (0 : Fin 1) ∉ (List.finRange 1).filter (· ∉ ([0] : List (Fin 1))))
  rw [dif_neg h]

/-- Where update `e` lands: at the row its start index names when that lies in `[0, N)`, nowhere otherwise. -/
theorem resultIdx1 {N M w : Nat} (wf : ScatterDims.WF ⟨1, ![N]⟩ ⟨2, ![M, 1]⟩ ⟨1, ![M]⟩ [] [0] [0] 1)
    (idx : IVec ⟨2, ![M, 1]⟩ w) (e : Fin M) :
    (segDims1 N M wf).resultIdx? (ix1 e) idx =
      if h : 0 ≤ (idx (ixP e)).toInt ∧ (idx (ixP e)).toInt < (N : ℤ) then
        some (ix1 ⟨(idx (ixP e)).toInt.toNat, by omega⟩) else none := by
  have s0 := start1_0 wf idx e
  have w0 := window1_0 wf (ix1 e)
  unfold ScatterDims.resultIdx?
  by_cases h : 0 ≤ (idx (ixP e)).toInt ∧ (idx (ixP e)).toInt < (N : ℤ)
  · have hall : ∀ a, 0 ≤ (segDims1 N M wf).start (ix1 e) idx a + (segDims1 N M wf).window (ix1 e) a ∧
        (segDims1 N M wf).start (ix1 e) idx a + (segDims1 N M wf).window (ix1 e) a
          < ((⟨1, ![N]⟩ : Shape).size a : ℤ) := by
      refine Fin.forall_fin_one.2 ?_
      show 0 ≤ (segDims1 N M wf).start (ix1 e) idx 0 + ((segDims1 N M wf).window (ix1 e) 0 : ℕ) ∧
          (segDims1 N M wf).start (ix1 e) idx 0 + ((segDims1 N M wf).window (ix1 e) 0 : ℕ) < (N : ℤ)
      rw [s0, w0]; omega
    rw [dif_pos h, dif_pos hall]
    congr 1
    funext a
    match a with
    | ⟨0, _⟩ =>
      refine Fin.ext ?_
      show ((segDims1 N M wf).start (ix1 e) idx 0 + ((segDims1 N M wf).window (ix1 e) 0 : ℕ)).toNat = _
      rw [s0, w0]; simp
  · rw [dif_neg h, dif_neg]
    intro hall
    apply h
    have h0 : 0 ≤ (segDims1 N M wf).start (ix1 e) idx 0 + ((segDims1 N M wf).window (ix1 e) 0 : ℕ) ∧
          (segDims1 N M wf).start (ix1 e) idx 0 + ((segDims1 N M wf).window (ix1 e) 0 : ℕ) < (N : ℤ) := hall 0
    rw [s0, w0] at h0
    omega

/-- Update `e` lands on row `i` exactly when its start index, read signed, is `i`. -/
theorem resultIdx1_eq_some_iff {N M w : Nat}
    (wf : ScatterDims.WF ⟨1, ![N]⟩ ⟨2, ![M, 1]⟩ ⟨1, ![M]⟩ [] [0] [0] 1)
    (idx : IVec ⟨2, ![M, 1]⟩ w) (e : Fin M) (i : Fin N) :
    (segDims1 N M wf).resultIdx? (ix1 e) idx = some (ix1 i) ↔ (idx (ixP e)).toInt = (i.val : ℤ) := by
  rw [resultIdx1]
  constructor
  · intro hEq
    by_cases h : 0 ≤ (idx (ixP e)).toInt ∧ (idx (ixP e)).toInt < (N : ℤ)
    · rw [dif_pos h] at hEq
      have hf := Option.some.inj hEq
      have h0 : (idx (ixP e)).toInt.toNat = i.val := congrArg Fin.val (congrFun hf 0)
      omega
    · rw [dif_neg h] at hEq
      exact absurd hEq (by simp)
  · intro ht
    have h : 0 ≤ (idx (ixP e)).toInt ∧ (idx (ixP e)).toInt < (N : ℤ) := by have := i.isLt; omega
    rw [dif_pos h]
    congr 2
    exact Fin.ext (by show (idx (ixP e)).toInt.toNat = i.val; omega)

/-- A segment sum of scalars at row `i`: the operand's entry plus the updates whose segment id is `i`. -/
theorem scatterAdd_seg1_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (i : Fin N) :
    Ideal.hostScatterAdd (segDims1 N M wf) x idx upd (ix1 i)
      = x (ix1 i) + ∑ e : Fin M, if (idx (ixP e)).toInt = (i.val : ℤ) then upd (ix1 e) else 0 := by
  unfold Ideal.hostScatterAdd
  congr 1
  -- the filtered sum as a sum of conditionals, re-indexed by the update's one coordinate
  rw [Finset.sum_filter, ← Equiv.sum_comp (idxEquiv1 (n := M)).symm]
  refine Finset.sum_congr rfl fun e _ => ?_
  show (if (segDims1 N M wf).resultIdx? (ix1 e) idx = some (ix1 i) then upd (ix1 e) else 0) = _
  simp only [resultIdx1_eq_some_iff]

/-! ## Rows: operand [N, C], updates [M, C]

Axis 0 of the operand is the start-indexed, inserted axis; axis 1 is the window axis, fed by the updates' axis 1. So
update `(e, c)` lands at row `start` (the `e`-th entry of the index column read signed), column `c`. -/

/-- The window's start on the row axis for update `(e, c)`: entry `e` of the index column, read signed. -/
theorem start2_0 {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (segDims2 N M C wf).start (ix2 e c) idx 0 = (idx (ixP e)).toInt := by
  unfold ScatterDims.start
  rw [dif_pos (show (0 : Fin 2) ∈ (segDims2 N M C wf).scatterDimsToOperandDims from List.mem_singleton.mpr rfl)]
  congr 2
  funext b
  match b with
  | ⟨0, _⟩ => rfl
  | ⟨1, _⟩ => rfl

/-- The column axis is not start-indexed: its window starts at zero. -/
theorem start2_1 {N M C w : Nat} (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) :
    (segDims2 N M C wf).start j idx 1 = 0 := by
  unfold ScatterDims.start
  have h : (1 : Fin 2) ∉ (segDims2 N M C wf).scatterDimsToOperandDims :=
    (by decide : (1 : Fin 2) ∉ ([0] : List (Fin 2)))
  rw [dif_neg h]

/-- The row axis is inserted, so the window coordinate on it is zero. -/
theorem window2_0 {N M C : Nat} (wf : ScatterDims.WF ⟨2, ![N, C]⟩ ⟨2, ![M, 1]⟩ ⟨2, ![M, C]⟩ [1] [0] [0] 1)
    (j : (⟨2, ![M, C]⟩ : Shape).Idx) :
    (segDims2 N M C wf).window j 0 = 0 := by
  unfold ScatterDims.window
  have h : (0 : Fin 2) ∉ (segDims2 N M C wf).sKept :=
    (by decide : (0 : Fin 2) ∉ (List.finRange 2).filter (· ∉ ([0] : List (Fin 2))))
  rw [dif_neg h]

/-- The window coordinate on the column axis is the update's own column. -/
theorem window2_1 {N M C : Nat} (wf : ScatterDims.WF ⟨2, ![N, C]⟩ ⟨2, ![M, 1]⟩ ⟨2, ![M, C]⟩ [1] [0] [0] 1)
    (e : Fin M) (c : Fin C) :
    (segDims2 N M C wf).window (ix2 e c) 1 = c.val := by
  unfold ScatterDims.window
  have h : (1 : Fin 2) ∈ (segDims2 N M C wf).sKept :=
    (by decide : (1 : Fin 2) ∈ (List.finRange 2).filter (· ∉ ([0] : List (Fin 2))))
  rw [dif_pos h]
  rfl

/-- Where update `(e, c)` lands: at the row its start index names, column `c`, when that row lies in `[0, N)`; nowhere
    otherwise. -/
theorem resultIdx2 {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (segDims2 N M C wf).resultIdx? (ix2 e c) idx =
      if h : 0 ≤ (idx (ixP e)).toInt ∧ (idx (ixP e)).toInt < (N : ℤ) then
        some (ix2 ⟨(idx (ixP e)).toInt.toNat, by omega⟩ c) else none := by
  have s0 := start2_0 wf idx e c
  have s1 := start2_1 wf idx (ix2 e c)
  have w0 := window2_0 wf (ix2 e c)
  have w1 := window2_1 wf e c
  unfold ScatterDims.resultIdx?
  by_cases h : 0 ≤ (idx (ixP e)).toInt ∧ (idx (ixP e)).toInt < (N : ℤ)
  · have hall : ∀ a, 0 ≤ (segDims2 N M C wf).start (ix2 e c) idx a + (segDims2 N M C wf).window (ix2 e c) a ∧
        (segDims2 N M C wf).start (ix2 e c) idx a + (segDims2 N M C wf).window (ix2 e c) a
          < ((⟨2, ![N, C]⟩ : Shape).size a : ℤ) := by
      refine Fin.forall_fin_two.2 ⟨?_, ?_⟩
      · show 0 ≤ (segDims2 N M C wf).start (ix2 e c) idx 0 + ((segDims2 N M C wf).window (ix2 e c) 0 : ℕ) ∧
          (segDims2 N M C wf).start (ix2 e c) idx 0 + ((segDims2 N M C wf).window (ix2 e c) 0 : ℕ) < (N : ℤ)
        rw [s0, w0]; omega
      · show 0 ≤ (segDims2 N M C wf).start (ix2 e c) idx 1 + ((segDims2 N M C wf).window (ix2 e c) 1 : ℕ) ∧
          (segDims2 N M C wf).start (ix2 e c) idx 1 + ((segDims2 N M C wf).window (ix2 e c) 1 : ℕ) < (C : ℤ)
        rw [s1, w1]; have := c.isLt; omega
    rw [dif_pos h, dif_pos hall]
    congr 1
    funext a
    match a with
    | ⟨0, _⟩ =>
      refine Fin.ext ?_
      show ((segDims2 N M C wf).start (ix2 e c) idx 0 + ((segDims2 N M C wf).window (ix2 e c) 0 : ℕ)).toNat = _
      rw [s0, w0]; simp
    | ⟨1, _⟩ =>
      refine Fin.ext ?_
      show ((segDims2 N M C wf).start (ix2 e c) idx 1 + ((segDims2 N M C wf).window (ix2 e c) 1 : ℕ)).toNat = c.val
      rw [s1, w1]; simp
  · rw [dif_neg h, dif_neg]
    intro hall
    apply h
    have h0 : 0 ≤ (segDims2 N M C wf).start (ix2 e c) idx 0 + ((segDims2 N M C wf).window (ix2 e c) 0 : ℕ) ∧
          (segDims2 N M C wf).start (ix2 e c) idx 0 + ((segDims2 N M C wf).window (ix2 e c) 0 : ℕ) < (N : ℤ) := hall 0
    rw [s0, w0] at h0
    omega

/-- Update `(e, c)` lands on `(i, l)` exactly when its start index, read signed, is `i` and its column is `l`. -/
theorem resultIdx2_eq_some_iff {N M C w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) (i : Fin N) (l : Fin C) :
    (segDims2 N M C wf).resultIdx? (ix2 e c) idx = some (ix2 i l) ↔
      (idx (ixP e)).toInt = (i.val : ℤ) ∧ c = l := by
  rw [resultIdx2]
  constructor
  · intro hEq
    by_cases h : 0 ≤ (idx (ixP e)).toInt ∧ (idx (ixP e)).toInt < (N : ℤ)
    · rw [dif_pos h] at hEq
      have hf := Option.some.inj hEq
      have h0 : (idx (ixP e)).toInt.toNat = i.val := congrArg Fin.val (congrFun hf 0)
      have h1 : c = l := congrFun hf 1
      exact ⟨by omega, h1⟩
    · rw [dif_neg h] at hEq
      exact absurd hEq (by simp)
  · rintro ⟨ht, rfl⟩
    have h : 0 ≤ (idx (ixP e)).toInt ∧ (idx (ixP e)).toInt < (N : ℤ) := by have := i.isLt; omega
    rw [dif_pos h]
    congr 2
    exact Fin.ext (by show (idx (ixP e)).toInt.toNat = i.val; omega)

/-- A segment sum of rows at row `i`, column `l`: the operand's entry plus column `l` of the update rows whose
    segment id is `i`. -/
theorem scatterAdd_seg2_apply {N M C w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (l : Fin C) :
    Ideal.hostScatterAdd (segDims2 N M C wf) x idx upd (ix2 i l)
      = x (ix2 i l) + ∑ e : Fin M, if (idx (ixP e)).toInt = (i.val : ℤ) then upd (ix2 e l) else 0 := by
  unfold Ideal.hostScatterAdd
  congr 1
  -- the filtered sum as a sum of conditionals over (row, column) of the updates
  rw [Finset.sum_filter, sum_idx2]
  refine Finset.sum_congr rfl fun e _ => ?_
  simp only [resultIdx2_eq_some_iff]
  -- for a fixed update row, only column `l` can match
  by_cases ht : (idx (ixP e)).toInt = (i.val : ℤ)
  · simp only [ht, true_and, if_true]
    rw [Finset.sum_ite_eq' Finset.univ l (fun c => upd (ix2 e c)), if_pos (Finset.mem_univ l)]
  · simp only [ht, false_and, if_false, Finset.sum_const_zero]

end Cert.LibSegment

end
-- ==== Proof.RefFeats.lean ====
/-
  The reference's per-segment features, read at an index on the extended reals.

  Entry `(e, mm)` of the reference's weight matrix is the Gaussian weight of point `e` against landmark `mm` (in the
  reference's own spelling, then in the kernel's: they are one extended real).  The segment sum starts from zeros and
  adds row `e` of the weights to the row its segment id names, so entry `(b, mm)` of the result is the sum over the
  points whose segment id, read signed, is `b` of their weights against landmark `mm`.
-/
import proofs.«401140_j30270929502733_1_alg».proof.Proof.Gen.ReferenceIdeal.Read
import proofs.«401140_j30270929502733_1_alg».proof.Proof.LibSegment
import proofs.«401140_j30270929502733_1_alg».proof.Proof.Weight

noncomputable section

open scoped BigOperators

namespace Cert.ReferenceIdeal.RefValue

open Cert.ReferenceIdeal Cert.ReferenceIdeal.Gen Cert.ReferenceIdeal.Read
open Idealize.ShloMosaic Idealize.ShloMosaic.ValueIdx Idealize.ShloMosaic.StableHlo.Predicate

/-- The reference's weight of point `e` against landmark `mm`. -/
theorem weight_apply (x0 : (⟨S1048576x2, .f32⟩ : BufTy).Contents (Elt Ideal)) (x2 : (⟨S64x2, .f32⟩ : BufTy).Contents (Elt Ideal))
    (e : Fin 1048576) (mm : Fin 64) :
    val_main_v17 (F := Ideal) x0 x2 (ix2 e mm) = Gauss.refW (fun j => x0 (ix2 e j)) (fun j => x2 (ix2 mm j)) := by
  have e1 : ∀ k : Fin 2, idx_main_v1 (idx_main_v2 (idx_main_v6 (ix2 e mm))) k = ix2 e k := fun k =>
    funext fun a => Fin.ext (by match a with | ⟨0, _⟩ => rfl | ⟨1, _⟩ => rfl)
  have e2 : ∀ k : Fin 2, idx_main_v4 (idx_main_v5 (idx_main_v7 (ix2 e mm))) k = ix2 mm k := fun k =>
    funext fun a => Fin.ext (by match a with | ⟨0, _⟩ => rfl | ⟨1, _⟩ => rfl)
  have e3 : ∀ k : Fin 2, lidx_main_v12 (ix2 e mm) k = ix2 e k := fun k =>
    funext fun a => Fin.ext (by match a with | ⟨0, _⟩ => rfl | ⟨1, _⟩ => rfl)
  have e4 : ∀ k : Fin 2, idx_main_v11 (ridx_main_v12 (ix2 e mm) k) = ix2 mm k := fun k =>
    funext fun a => Fin.ext (by match a with | ⟨0, _⟩ => rfl | ⟨1, _⟩ => rfl)
  rw [val_main_v17_apply, val_main_v16_apply, val_main_v14_apply, val_main_v13_apply, val_main_v8_apply,
    val_main_v6_apply, val_main_v2_apply, val_main_v1_apply, val_main_v7_apply, val_main_v5_apply, val_main_v4_apply,
    val_main_v12_apply, val_main_v15_apply, val_main_cst_2_apply]
  simp only [val_main_v0_apply, val_main_v3_apply, val_main_v10_apply, val_main_v11_apply, val_main_v9_apply,
    val_main_cst_apply, val_main_cst_0_apply, val_main_cst_1_apply, Ideal.mulf_def, Ideal.addf_def, Ideal.subf_def,
    Ideal.hostNegf_def, Ideal.negf_def, Ideal.hostDivf_def, Ideal.hostUnary_exp_def, Ideal.ofBits_def]
  have s1 : ∑ k : Fin 2, x0 (idx_main_v1 (idx_main_v2 (idx_main_v6 (ix2 e mm))) k)
        * x0 (idx_main_v1 (idx_main_v2 (idx_main_v6 (ix2 e mm))) k) = ∑ j : Fin 2, x0 (ix2 e j) * x0 (ix2 e j) :=
    Finset.sum_congr rfl fun k _ => by rw [e1 k]
  have s2 : ∑ k : Fin 2, x2 (idx_main_v4 (idx_main_v5 (idx_main_v7 (ix2 e mm))) k)
        * x2 (idx_main_v4 (idx_main_v5 (idx_main_v7 (ix2 e mm))) k) = ∑ j : Fin 2, x2 (ix2 mm j) * x2 (ix2 mm j) :=
    Finset.sum_congr rfl fun k _ => by rw [e2 k]
  have s3 : ∑ k : Fin 2, Ideal.ofBits .f32 0x40000000#32 * x0 (lidx_main_v12 (ix2 e mm) k)
        * x2 (idx_main_v11 (ridx_main_v12 (ix2 e mm) k))
      = ∑ j : Fin 2, Ideal.ofBits .f32 0x40000000#32 * x0 (ix2 e j) * x2 (ix2 mm j) :=
    Finset.sum_congr rfl fun k _ => by rw [e3 k, e4 k]
  rw [s1, s2, s3]
  rfl

/-- The reference's scatter record is the record of a segment sum of rows. -/
theorem hd : scatter_S2048x64_S1048576x1_S1048576x64_1_0_0_1
    = LibSegment.segDims2 2048 1048576 64 scatter_S2048x64_S1048576x1_S1048576x64_1_0_0_1_wf := rfl

/-- The reference's scatter-add at row `b`, column `mm`: the operand's entry plus column `mm` of the update rows whose
    index, read signed, is `b`. -/
theorem scatter_apply (x : S2048x64.Idx → EReal) (idx : IVec S1048576x1 32) (upd : S1048576x64.Idx → EReal)
    (b : Fin 2048) (mm : Fin 64) :
    Ideal.hostScatterAdd scatter_S2048x64_S1048576x1_S1048576x64_1_0_0_1 x idx upd (ix2 b mm)
      = x (ix2 b mm) + ∑ e : Fin 1048576, if (idx (ixP e)).toInt = (b.val : ℤ) then upd (ix2 e mm) else 0 := by
  rw [hd]
  exact LibSegment.scatterAdd_seg2_apply _ x idx upd b mm

/-- Entry `(b, mm)` of the reference's segment sum: the weights against landmark `mm` of the points in segment `b`. -/
theorem feats_apply (x0 : (⟨S1048576x2, .f32⟩ : BufTy).Contents (Elt Ideal)) (x1 : (⟨S1048576, .i32⟩ : BufTy).Contents (Elt Ideal))
    (x2 : (⟨S64x2, .f32⟩ : BufTy).Contents (Elt Ideal)) (b : Fin 2048) (mm : Fin 64) :
    val_main_v20 (F := Ideal) x0 x1 x2 (ix2 b mm)
      = ∑ e : Fin 1048576, if (x1 (ix1 e)).toInt = (b.val : ℤ)
          then Gauss.kerW (fun j => x0 (ix2 e j)) (fun j => x2 (ix2 mm j)) else 0 := by
  have e5 : ∀ e : Fin 1048576, idx_main_v19 (ixP e) = ix1 e := fun e =>
    funext fun a => Fin.ext (by match a with | ⟨0, _⟩ => rfl)
  rw [val_main_v20, Host.scatterAdd, Ideal.hostScatterAdd_def, scatter_apply, val_main_v18_apply, val_main_cst_3_apply, Ideal.ofBits_def, Consts.ofBits_zero, zero_add]
  refine Finset.sum_congr rfl fun e _ => ?_
  rw [val_main_v19_apply, e5, weight_apply, Gauss.refW_eq_kerW]

end Cert.ReferenceIdeal.RefValue

end
-- ==== Proof.RefTail.lean ====
/-
  The reference's result as its last operations applied to its per-segment features, at any float instance: the bias
  plus the product of the features with the transposed dense weights.
-/
import proofs.«401140_j30270929502733_1_alg».proof.Proof.Gen.ReferenceIdeal.Read

noncomputable section

namespace Cert.ReferenceIdeal.RefValue

open Cert.ReferenceIdeal Cert.ReferenceIdeal.Gen Cert.ReferenceIdeal.Read
open Idealize.ShloMosaic

variable {F : FTy → Type} [FloatOps F]

/-- The reference's tail as one function of the features `[2048, 64]`, the dense weights `[10, 64]` and the bias `[10]`. -/
def tailR (fe : FVec F S2048x64 .f32) (W : FVec F S10x64 .f32) (B : FVec F S10 .f32) : FVec F S2048x10 .f32 :=
  addf
    (Host.dotGeneral dot_S2048x64_S64x10_S2048x10_1_0_0_1_n_n none fe
      (transpose S64x10 [1, 0] W transposes_S10x64_S64x10_1_0))
    (broadcastInDim S2048x10 ![0, 1] bcast_S1x10_S2048x10_0_1 (broadcastInDim S1x10 ![1] bcast_S10_S1x10_1 B))

/-- The reference's result is that tail of its segment sum. -/
theorem v25_eq (x0 : (⟨S1048576x2, .f32⟩ : BufTy).Contents (Elt F)) (x1 : (⟨S1048576, .i32⟩ : BufTy).Contents (Elt F))
    (x2 : (⟨S64x2, .f32⟩ : BufTy).Contents (Elt F)) (x3 : (⟨S10x64, .f32⟩ : BufTy).Contents (Elt F))
    (x4 : (⟨S10, .f32⟩ : BufTy).Contents (Elt F)) :
    val_main_v25 (F := F) x0 x1 x2 x3 x4 = tailR (val_main_v20 (F := F) x0 x1 x2) x3 x4 := rfl

end Cert.ReferenceIdeal.RefValue

end
-- ==== Proof.lean ====
/-
  The kernel computes, for 1048576 points of the plane in 2048 segments and 64 landmarks, the per-segment sums of the
  Gaussian weights `exp (-2 · |point - landmark|²)` and then a dense layer; the reference computes the same through a
  segment sum.  On the extended reals the two results are equal, entry by entry, for every input.

  The kernel's side: its grid walks the points in 512 blocks of 2048, accumulating into one output block
  `[64, 2048]` the product of the block's weights with the one-hot matrix of the block's segment ids; the accumulated
  entry `(mm, b)` is the sum over all points whose segment id is `b` of their weight against landmark `mm`
  (a weight times a one-hot entry is the weight or zero, and the blocks partition the points).
  The reference's side: its scatter-add into zeros puts, at `(b, mm)`, the same sum; its weight is spelt
  `exp (-(d) / (1/2))` with the inner product taken of the doubled point, which is the kernel's `exp (d · (-2))`
  because a non-negative real factor distributes over any sum of extended reals.
  Both programs end with the same dense layer; the kernel transposes its features first.

  The three frames are the generated frame runs; no rewrite separates the kernel from its idealization.
-/
import proofs.«401140_j30270929502733_1_alg».proof.Defs
import proofs.«401140_j30270929502733_1_alg».proof.Proof.Gen.Kernel
import proofs.«401140_j30270929502733_1_alg».proof.Proof.Gen.Kernel.Skeleton
import proofs.«401140_j30270929502733_1_alg».proof.Proof.Gen.Kernel.Launch
import proofs.«401140_j30270929502733_1_alg».proof.Proof.Gen.Kernel.Points
import proofs.«401140_j30270929502733_1_alg».proof.Proof.Gen.Kernel.Frame
import proofs.«401140_j30270929502733_1_alg».proof.Proof.Gen.KernelIdeal
import proofs.«401140_j30270929502733_1_alg».proof.Proof.Gen.KernelIdeal.Skeleton
import proofs.«401140_j30270929502733_1_alg».proof.Proof.Gen.KernelIdeal.Launch
import proofs.«401140_j30270929502733_1_alg».proof.Proof.Gen.KernelIdeal.Points
import proofs.«401140_j30270929502733_1_alg».proof.Proof.Gen.KernelIdeal.Frame
import proofs.«401140_j30270929502733_1_alg».proof.Proof.Gen.ReferenceIdeal
import proofs.«401140_j30270929502733_1_alg».proof.Proof.Gen.Pre_finite_inputs
import proofs.«401140_j30270929502733_1_alg».proof.Proof.Gen.ReferenceIdeal.Run
import proofs.«401140_j30270929502733_1_alg».proof.Proof.Gen.ReferenceIdeal.Read
import proofs.«401140_j30270929502733_1_alg».proof.Proof.KernelRun
import proofs.«401140_j30270929502733_1_alg».proof.Proof.RefFeats
import proofs.«401140_j30270929502733_1_alg».proof.Proof.RefTail
import Idealize.ShloMosaic.Lib.ValueLayout
import Idealize.ShloMosaic.Adequacy
import Idealize.ShloMosaic.Init

noncomputable section

namespace Cert.Proof

open Idealize.ShloMosaic Idealize.ShloMosaic.TcCoe Idealize.SL.Sem Idealize.ShloMosaic.ValueIdx

/-- The two tails are one function: the kernel's, which first transposes its `[64, 2048]` features, is the
    reference's at the transposed features.  True at any float instance, by the programs' texts. -/
theorem tail_cross {F : FTy → Type} [FloatOps F] (ft : FVec F Cert.KernelIdeal.S64x2048 .f32)
    (W : FVec F Cert.KernelIdeal.S10x64 .f32) (B : FVec F Cert.KernelIdeal.S10 .f32) :
    Cert.KernelIdeal.TailValue.tailOf ft W B
      = Cert.ReferenceIdeal.RefValue.tailR
          (transpose Cert.KernelIdeal.S2048x64 [1, 0] ft Cert.KernelIdeal.Gen.transposes_S64x2048_S2048x64_1_0) W B := rfl

/-- The kernel's accumulated features, transposed, are the reference's segment sum: at `(b, mm)` both are the sum
    over the points in segment `b` of their weights against landmark `mm`. -/
theorem feats_eq (m : (ℓ : Loc Cert.KernelIdeal.nD Cert.KernelIdeal.τ Cert.KernelIdeal.sig) → Buf (Elt Ideal) ℓ)
    (c : Dev Cert.KernelIdeal.nD) :
    transpose Cert.KernelIdeal.S2048x64 [1, 0] (Cert.KernelIdeal.FeatValue.featsT m c)
        Cert.KernelIdeal.Gen.transposes_S64x2048_S2048x64_1_0
      = Cert.ReferenceIdeal.Read.val_main_v20 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  funext i
  obtain ⟨b, mm, rfl⟩ : ∃ (b : Fin 2048) (mm : Fin 64), i = ix2 b mm := ⟨i 0, i 1, eq_ix2 i⟩
  rw [transpose_ix2_apply, Cert.KernelIdeal.FeatValue.featsT_apply, Cert.ReferenceIdeal.RefValue.feats_apply]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs run, and end with equal results. -/
theorem algebraic : Cert.algebraic_KernelIdeal_ReferenceIdeal := by
  intro m ρ m' ρ' _ hagree
  refine ⟨fun c => Cert.KernelIdeal.FeatValue.result m c, Cert.KernelIdeal.FeatValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v25_eq, Cert.ReferenceIdeal.RefValue.v25_eq, ← feats_eq m c]
  exact (tail_cross _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
